-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x128 : Shape := ⟨2, ![40000, 128]⟩
abbrev S640000x128 : Shape := ⟨2, ![640000, 128]⟩
abbrev S128x128 : Shape := ⟨2, ![128, 128]⟩
abbrev S128 : Shape := ⟨1, ![128]⟩
abbrev S640000 : Shape := ⟨1, ![640000]⟩
abbrev S_ : Shape := ⟨0, ![]⟩

class Facts : Prop where
  bcast_S_S40000x128 : S_.BroadcastsInDim S40000x128 (![] : Fin 0 → Fin S40000x128.rank)
  reducesTo_S40000x128_S_d0_1 : S40000x128.ReducesTo [0, 1] S_
  h_S_ : 0 < S_.numel
  bcast_S_S640000x128 : S_.BroadcastsInDim S640000x128 (![] : Fin 0 → Fin S640000x128.rank)
  reducesTo_S640000x128_S_d0_1 : S640000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg7 : FVec F S128 .f32) (main_arg8 : FVec F S128 .f32) (main_arg9 : FVec F S128 .f32) (main_arg10 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg4 : FVec F S128x128 .f32) (main_arg5 : FVec F S128x128 .f32) (main_arg6 : FVec F S128x128 .f32) (main_arg7 : FVec F S128 .f32) (main_arg8 : FVec F S128 .f32) (main_arg9 : FVec F S128 .f32) (main_arg10 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S40000x128 .f32) (main_arg1 : FVec F S40000x128 .f32) (main_arg2 : FVec F S640000x128 .f32) (main_arg3 : FVec F S128x128 .f32) (main_arg4 : FVec F S128x128 .f32) (main_arg5 : FVec F S128x128 .f32) (main_arg6 : FVec F S128x128 .f32) (main_arg7 : FVec F S128 .f32) (main_arg8 : FVec F S128 .f32) (main_arg9 : FVec F S128 .f32) (main_arg10 : FVec F S128 .f32) (main_arg11 : IVec S640000 32) (main_arg12 : IVec S640000 32) : IVec S_ 1 :=
  let main_v0 : FVec F S40000x128 .f32 := Host.absf main_arg0
  let main_cst : FVec F S_ .f32 := constant S_ .f32 0x7F800000#32
  let main_v1 : FVec F S40000x128 .f32 := broadcastInDim S40000x128 ![] bcast_S_S40000x128 main_cst
  let main_v2 : IVec S40000x128 1 := cmpf .olt main_v0 main_v1
  let main_c : IVec S_ 1 := constantI S_ 1 1#1
  let main_v3 : IVec S_ 1 := (fun x v => Host.reduce IntOp.andi x v reducesTo_S40000x128_S_d0_1 h_S_) main_v2 main_c
  let main_v4 : FVec F S40000x128 .f32 := Host.absf main_arg1
  let main_cst_0 : FVec F S_ .f32 := constant S_ .f32 0x7F800000#32
  let main_v5 : FVec F S40000x128 .f32 := broadcastInDim S40000x128 ![] bcast_S_S40000x128 main_cst_0
  let main_v6 : IVec S40000x128 1 := cmpf .olt main_v4 main_v5
  let main_c_1 : IVec S_ 1 := constantI S_ 1 1#1
  let main_v7 : IVec S_ 1 := (fun x v => Host.reduce IntOp.andi x v reducesTo_S40000x128_S_d0_1 h_S_) main_v6 main_c_1
  let main_v8 : IVec S_ 1 := andi main_v3 main_v7
  let main_v9 : FVec F S640000x128 .f32 := Host.absf main_arg2
  let main_cst_2 : FVec F S_ .f32 := constant S_ .f32 0x7F800000#32
  let main_v10 : FVec F S640000x128 .f32 := broadcastInDim S640000x128 ![] bcast_S_S640000x128 main_cst_2
  let main_v11 : IVec S640000x128 1 := cmpf .olt main_v9 main_v10
  let main_c_3 : IVec S_ 1 := constantI S_ 1 1#1
  let main_v12 : IVec S_ 1 := (fun x v => Host.reduce IntOp.andi x v reducesTo_S640000x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_v13 main_v16
-- ==== Kernel.lean ====
abbrev S40000x128 : Shape := ⟨2, ![40000, 128]⟩
abbrev S640000x128 : Shape := ⟨2, ![640000, 128]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S5000x128 : Shape := ⟨2, ![5000, 128]⟩
abbrev S5000 : Shape := ⟨1, ![5000]⟩
abbrev S5000x1 : Shape := ⟨2, ![5000, 1]⟩
abbrev S40000 : Shape := ⟨1, ![40000]⟩
abbrev S40000x1 : Shape := ⟨2, ![40000, 1]⟩
abbrev S2000x128 : Shape := ⟨2, ![2000, 128]⟩
abbrev S2000 : Shape := ⟨1, ![2000]⟩
abbrev S2000x1 : Shape := ⟨2, ![2000, 1]⟩

abbrev nBuf : Space → Nat
  | .hbm => 59
  | .vmem => 22
  | .smem => 0
  | _ => 0

abbrev bufTy : (tb : Table) → Fin (tcTables nBuf tb) → BufTy
  | .hbm, ⟨0, _⟩ => ⟨S40000x128, .f32⟩
  | .hbm, ⟨1, _⟩ => ⟨S40000x128, .f32⟩
  | .hbm, ⟨2, _⟩ => ⟨S640000x128, .f32⟩
  | .hbm, ⟨3, _⟩ => ⟨S128x128, .f32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S640000, .i32⟩
  | .hbm, ⟨12, _⟩ => ⟨S640000, .i32⟩
  | .hbm, ⟨13, _⟩ => ⟨S_, .i32⟩
  | .hbm, ⟨14, _⟩ => ⟨S640000, .i32⟩
  | .hbm, ⟨15, _⟩ => ⟨S640000, .i1⟩
  | .hbm, ⟨16, _⟩ => ⟨S_, .i32⟩
  | .hbm, ⟨17, _⟩ => ⟨S640000, .i32⟩
  | .hbm, ⟨18, _⟩ => ⟨S640000, .i32⟩
  | .hbm, ⟨19, _⟩ => ⟨S640000, .i32⟩
  | .hbm, ⟨20, _⟩ => ⟨S640000x1, .i32⟩
  | .hbm, ⟨21, _⟩ => ⟨S640000x128, .f32⟩
  | .hbm, ⟨22, _⟩ => ⟨S_, .i32⟩
  | .hbm, ⟨23, _⟩ => ⟨S640000, .i32⟩
  | .hbm, ⟨24, _⟩ => ⟨S640000, .i1⟩
  | .hbm, ⟨25, _⟩ => ⟨S_, .i32⟩
  | .hbm, ⟨26, _⟩ => ⟨S640000, .i32⟩
  | .hbm, ⟨27, _⟩ => ⟨S640000, .i32⟩
  | .hbm, ⟨28, _⟩ => ⟨S640000, .i32⟩
  | .hbm, ⟨29, _⟩ => ⟨S640000x1, .i32⟩
  | .hbm, ⟨30, _⟩ => ⟨S640000x128, .f32⟩
  | .hbm, ⟨31, _⟩ => ⟨S640000x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x128, .f32⟩
  | .hbm, ⟨36, _⟩ => ⟨S1x128, .f32⟩
  | .hbm, ⟨37, _⟩ => ⟨S1x128, .f32⟩
  | .hbm, ⟨38, _⟩ => ⟨S1x128, .f32⟩
  | .hbm, ⟨39, _⟩ => ⟨S1x128, .f32⟩
  | .hbm, ⟨40, _⟩ => ⟨S640000x128, .f32⟩
  | .hbm, ⟨41, _⟩ => ⟨S640000x128, .f32⟩
  | .hbm, ⟨42, _⟩ => ⟨S_, .f32⟩
  | .hbm, ⟨43, _⟩ => ⟨S40000x128, .f32⟩
  | .hbm, ⟨44, _⟩ => ⟨S640000x1, .i32⟩
  | .hbm, ⟨45, _⟩ => ⟨S40000x128, .f32⟩
  | .hbm, ⟨46, _⟩ => ⟨S_, .f32⟩
  | .hbm, ⟨47, _⟩ => ⟨S640000, .f32⟩
  | .hbm, ⟨48, _⟩ => ⟨S_, .f32⟩
  | .hbm, ⟨49, _⟩ => ⟨S40000, .f32⟩
  | .hbm, ⟨50, _⟩ => ⟨S640000x1, .i32⟩
  | .hbm, ⟨51, _⟩ => ⟨S40000, .f32⟩
  | .hbm, ⟨52, _⟩ => ⟨S_, .f32⟩
  | .hbm, ⟨53, _⟩ => ⟨S40000, .f32⟩
  | .hbm, ⟨54, _⟩ => ⟨S40000, .f32⟩
  | .hbm, ⟨55, _⟩ => ⟨S40000x1, .f32⟩
  | .hbm, ⟨56, _⟩ => ⟨S40000x128, .f32⟩
  | .hbm, ⟨57, _⟩ => ⟨S40000x128, .f32⟩
  | .hbm, ⟨58, _⟩ => ⟨S40000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S40000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23_0 : Ref sig .tc := ⟨.hbm, 40, rfl⟩
abbrev main_v23_1 : Ref sig .tc := ⟨.hbm, 41, rfl⟩
abbrev main_cst : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_3 : Ref sig .tc := ⟨.hbm, 46, rfl⟩
abbrev main_v27 : Ref sig .tc := ⟨.hbm, 47, rfl⟩
abbrev main_cst_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_5 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reduces_S5000x128_S5000 : S5000x128.Reduces [1] S5000
  shapeCasts_S5000_S5000x1 : S5000.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  reduces_S2000x128_S2000 : S2000x128.Reduces [1] S2000
  shapeCasts_S2000_S2000x1 : S2000.ShapeCasts S2000x1
  broadcasts_S2000x1_S2000x128 : S2000x1.Broadcasts S2000x128
  broadcasts_S1x128_S2000x128 : S1x128.Broadcasts S2000x128
  gather_S40000x128_S640000x1_S640000x128_1_0_n_n_0_1_1128_wf : GatherDims.WF S40000x128 S640000x1 S640000x128 [1] [0] [] [0] [] 1 ![1, 128]
  dot_S5000x128_S128x128_S5000x128_1_0_0_1_n_n_wf : DotDims.WF S5000x128 S128x128 S5000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S640000x128.size a
  hwx0_0 : ∀ i : grid0.Coords, EltTy.bits .f32 = 32 ∨ (Rect.block (s := S640000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S640000x128.size a
  hwx0_1 : ∀ i : grid0.Coords, EltTy.bits .f32 = 32 ∨ (Rect.block (s := S640000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S640000x128.size a
  hwx0_6 : ∀ i : grid0.Coords, EltTy.bits .f32 = 32 ∨ (Rect.block (s := S640000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S640000x128.size a
  hwx0_7 : ∀ i : grid0.Coords, EltTy.bits .f32 = 32 ∨ (Rect.block (s := S640000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S40000x128.size a
  hwx1_0 : ∀ i : grid1.Coords, EltTy.bits .f32 = 32 ∨ (Rect.block (s := S40000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S40000x128.size a
  hwx1_1 : ∀ i : grid1.Coords, EltTy.bits .f32 = 32 ∨ (Rect.block (s := S40000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S40000x128.size a
  hwx1_6 : ∀ i : grid1.Coords, EltTy.bits .f32 = 32 ∨ (Rect.block (s := S40000x128) S2000x128.size (cc1_transform_6 i) (hinb1_6 i)).WholeWords (EltTy.packing .f32)

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v23_1) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S40000x128 : Shape := ⟨2, ![40000, 128]⟩
abbrev S640000x128 : Shape := ⟨2, ![640000, 128]⟩
abbrev S128x128 : Shape := ⟨2, ![128, 128]⟩
abbrev S128 : Shape := ⟨1, ![128]⟩
abbrev S640000 : Shape := ⟨1, ![640000]⟩
abbrev S_ : Shape := ⟨0, ![]⟩
abbrev S640000x1 : Shape := ⟨2, ![640000, 1]⟩
abbrev S1x128 : Shape := ⟨2, ![1, 128]⟩
abbrev S40000 : Shape := ⟨1, ![40000]⟩
abbrev S40000x1 : Shape := ⟨2, ![40000, 1]⟩

abbrev nBuf : Space → Nat
  | .hbm => 136
  | .vmem => 0
  | .smem => 0
  | _ => 0

abbrev hbmTy0_0 (i : Nat) : BufTy := match i % 128 with
  | 0 => ⟨S40000x128, .f32⟩
  | 1 => ⟨S40000x128, .f32⟩
  | 2 => ⟨S640000x128, .f32⟩
  | 3 => ⟨S128x128, .f32⟩
  | 4 => ⟨S128x128, .f32⟩
  | 5 => ⟨S128x128, .f32⟩
  | 6 => ⟨S128x128, .f32⟩
  | 7 => ⟨S128, .f32⟩
  | 8 => ⟨S128, .f32⟩
  | 9 => ⟨S128, .f32⟩
  | 10 => ⟨S128, .f32⟩
  | 11 => ⟨S640000, .i32⟩
  | 12 => ⟨S640000, .i32⟩
  | 13 => ⟨S_, .i32⟩
  | 14 => ⟨S640000, .i32⟩
  | 15 => ⟨S640000, .i1⟩
  | 16 => ⟨S_, .i32⟩
  | 17 => ⟨S640000, .i32⟩
  | 18 => ⟨S640000, .i32⟩
  | 19 => ⟨S640000, .i32⟩
  | 20 => ⟨S640000x1, .i32⟩
  | 21 => ⟨S640000x128, .f32⟩
  | 22 => ⟨S_, .i32⟩
  | 23 => ⟨S640000, .i32⟩
  | 24 => ⟨S640000, .i1⟩
  | 25 => ⟨S_, .i32⟩
  | 26 => ⟨S640000, .i32⟩
  | 27 => ⟨S640000, .i32⟩
  | 28 => ⟨S640000, .i32⟩
  | 29 => ⟨S640000x1, .i32⟩
  | 30 => ⟨S640000x128, .f32⟩
  | 31 => ⟨S640000x128, .f32⟩
  | 32 => ⟨S128x128, .f32⟩
  | 33 => ⟨S640000x128, .f32⟩
  | 34 => ⟨S128x128, .f32⟩
  | 35 => ⟨S640000x128, .f32⟩
  | 36 => ⟨S640000x128, .f32⟩
  | 37 => ⟨S640000x128, .f32⟩
  | 38 => ⟨S640000x128, .f32⟩
  | 39 => ⟨S_, .f32⟩
  | 40 => ⟨S640000x128, .f32⟩
  | 41 => ⟨S640000x128, .f32⟩
  | 42 => ⟨S_, .f32⟩
  | 43 => ⟨S640000x128, .f32⟩
  | 44 => ⟨S640000x128, .f32⟩
  | 45 => ⟨S640000x128, .f32⟩
  | 46 => ⟨S_, .f32⟩
  | 47 => ⟨S640000, .f32⟩
  | 48 => ⟨S640000x1, .f32⟩
  | 49 => ⟨S_, .f32⟩
  | 50 => ⟨S640000x1, .f32⟩
  | 51 => ⟨S640000x1, .f32⟩
  | 52 => ⟨S640000x128, .f32⟩
  | 53 => ⟨S640000x128, .f32⟩
  | 54 => ⟨S640000x128, .f32⟩
  | 55 => ⟨S_, .f32⟩
  | 56 => ⟨S640000, .f32⟩
  | 57 => ⟨S640000x1, .f32⟩
  | 58 => ⟨S_, .f32⟩
  | 59 => ⟨S640000x1, .f32⟩
  | 60 => ⟨S640000x1, .f32⟩
  | 61 => ⟨S640000x128, .f32⟩
  | 62 => ⟨S640000x128, .f32⟩
  | 63 => ⟨S_, .f32⟩
  | 64 => ⟨S640000x1, .f32⟩
  | 65 => ⟨S640000x1, .f32⟩
  | 66 => ⟨S640000x1, .f32⟩
  | 67 => ⟨S640000x128, .f32⟩
  | 68 => ⟨S640000x128, .f32⟩
  | 69 => ⟨S1x128, .f32⟩
  | 70 => ⟨S640000x128, .f32⟩
  | 71 => ⟨S640000x128, .f32⟩
  | 72 => ⟨S1x128, .f32⟩
  | 73 => ⟨S640000x128, .f32⟩
  | 74 => ⟨S640000x128, .f32⟩
  | 75 => ⟨S640000x128, .f32⟩
  | 76 => ⟨S_, .f32⟩
  | 77 => ⟨S40000x128, .f32⟩
  | 78 => ⟨S640000x1, .i32⟩
  | 79 => ⟨S40000x128, .f32⟩
  | 80 => ⟨S_, .f32⟩
  | 81 => ⟨S640000, .f32⟩
  | 82 => ⟨S_, .f32⟩
  | 83 => ⟨S40000, .f32⟩
  | 84 => ⟨S640000x1, .i32⟩
  | 85 => ⟨S40000, .f32⟩
  | 86 => ⟨S_, .f32⟩
  | 87 => ⟨S40000, .f32⟩
  | 88 => ⟨S40000, .f32⟩
  | 89 => ⟨S40000x1, .f32⟩
  | 90 => ⟨S40000x128, .f32⟩
  | 91 => ⟨S40000x128, .f32⟩
  | 92 => ⟨S128x128, .f32⟩
  | 93 => ⟨S40000x128, .f32⟩
  | 94 => ⟨S128x128, .f32⟩
  | 95 => ⟨S40000x128, .f32⟩
  | 96 => ⟨S40000x128, .f32⟩
  | 97 => ⟨S40000x128, .f32⟩
  | 98 => ⟨S40000x128, .f32⟩
  | 99 => ⟨S_, .f32⟩
  | 100 => ⟨S40000x128, .f32⟩
  | 101 => ⟨S40000x128, .f32⟩
  | 102 => ⟨S_, .f32⟩
  | 103 => ⟨S40000x128, .f32⟩
  | 104 => ⟨S40000x128, .f32⟩
  | 105 => ⟨S40000x128, .f32⟩
  | 106 => ⟨S_, .f32⟩
  | 107 => ⟨S40000, .f32⟩
  | 108 => ⟨S40000x1, .f32⟩
  | 109 => ⟨S_, .f32⟩
  | 110 => ⟨S40000x1, .f32⟩
  | 111 => ⟨S40000x1, .f32⟩
  | 112 => ⟨S40000x128, .f32⟩
  | 113 => ⟨S40000x128, .f32⟩
  | 114 => ⟨S40000x128, .f32⟩
  | 115 => ⟨S_, .f32⟩
  | 116 => ⟨S40000, .f32⟩
  | 117 => ⟨S40000x1, .f32⟩
  | 118 => ⟨S_, .f32⟩
  | 119 => ⟨S40000x1, .f32⟩
  | 120 => ⟨S40000x1, .f32⟩
  | 121 => ⟨S40000x128, .f32⟩
  | 122 => ⟨S40000x128, .f32⟩
  | 123 => ⟨S_, .f32⟩
  | 124 => ⟨S40000x1, .f32⟩
  | 125 => ⟨S40000x1, .f32⟩
  | 126 => ⟨S40000x1, .f32⟩
  | 127 => ⟨S40000x128, .f32⟩
  | _ => ⟨S40000x128, .f32⟩

abbrev hbmTy0_1 (i : Nat) : BufTy := match i % 128 with
  | 0 => ⟨S40000x128, .f32⟩
  | 1 => ⟨S1x128, .f32⟩
  | 2 => ⟨S40000x128, .f32⟩
  | 3 => ⟨S40000x128, .f32⟩
  | 4 => ⟨S1x128, .f32⟩
  | 5 => ⟨S40000x128, .f32⟩
  | 6 => ⟨S40000x128, .f32⟩
  | 7 => ⟨S40000x128, .f32⟩
  | _ => ⟨S40000x128, .f32⟩

abbrev hbmTy (i : Nat) : BufTy := match i / 128 with
  | 0 => hbmTy0_0 i
  | 1 => hbmTy0_1 i
  | _ => ⟨S40000x128, .f32⟩

abbrev bufTy : (tb : Table) → Fin (tcTables nBuf tb) → BufTy
  | .hbm, ⟨i, _⟩ => hbmTy i
  | _, _ => ⟨S40000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_v0 : Ref sig .tc := ⟨.hbm, 14, rfl⟩
abbrev main_v1 : Ref sig .tc := ⟨.hbm, 15, rfl⟩
abbrev main_c_0 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v20 : Ref sig .tc := ⟨.hbm, 45, rfl⟩
abbrev main_cst : Ref sig .tc := ⟨.hbm, 46, rfl⟩
abbrev main_v21 : Ref sig .tc := ⟨.hbm, 47, rfl⟩
abbrev main_v22 : Ref sig .tc := ⟨.hbm, 48, rfl⟩
abbrev main_cst_3 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_4 : Ref sig .tc := ⟨.hbm, 55, rfl⟩
abbrev main_v28 : Ref sig .tc := ⟨.hbm, 56, rfl⟩
abbrev main_v29 : Ref sig .tc := ⟨.hbm, 57, rfl⟩
abbrev main_cst_5 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst_6 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_7 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_cst_8 : Ref sig .tc := ⟨.hbm, 80, rfl⟩
abbrev main_v49 : Ref sig .tc := ⟨.hbm, 81, rfl⟩
abbrev main_cst_9 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_cst_10 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_call1_v0 : Ref sig .tc := ⟨.hbm, 97, rfl⟩
abbrev main_call1_v1 : Ref sig .tc := ⟨.hbm, 98, rfl⟩
abbrev main_call1_cst : Ref sig .tc := ⟨.hbm, 99, rfl⟩
abbrev main_call1_v2 : Ref sig .tc := ⟨.hbm, 100, rfl⟩
abbrev main_call1_v3 : Ref sig .tc := ⟨.hbm, 101, rfl⟩
abbrev main_call1_cst_0 : Ref sig .tc := ⟨.hbm, 102, rfl⟩
abbrev main_call1_v4 : Ref sig .tc := ⟨.hbm, 103, rfl⟩
abbrev main_call1_v5 : Ref sig .tc := ⟨.hbm, 104, rfl⟩
abbrev main_v63 : Ref sig .tc := ⟨.hbm, 105, rfl⟩
abbrev main_cst_11 : Ref sig .tc := ⟨.hbm, 106, rfl⟩
abbrev main_v64 : Ref sig .tc := ⟨.hbm, 107, rfl⟩
abbrev main_v65 : Ref sig .tc := ⟨.hbm, 108, rfl⟩
abbrev main_cst_12 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_cst_13 : Ref sig .tc := ⟨.hbm, 115, rfl⟩
abbrev main_v71 : Ref sig .tc := ⟨.hbm, 116, rfl⟩
abbrev main_v72 : Ref sig .tc := ⟨.hbm, 117, rfl⟩
abbrev main_cst_14 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_cst_15 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  transposes_S128x128_S128x128_1_0 : S128x128.Transposes [1, 0] S128x128
  bcast_S_S640000x128 : S_.BroadcastsInDim S640000x128 (![] : Fin 0 → Fin S640000x128.rank)
  reducesTo_S640000x128_S640000_d1 : S640000x128.ReducesTo [1] S640000
  h_S_ : 0 < S_.numel
  bcast_S_S640000x1 : S_.BroadcastsInDim S640000x1 (![] : Fin 0 → Fin S640000x1.rank)
  bcast_S640000x1_S640000x128_0_1 : S640000x1.BroadcastsInDim S640000x128 (![0, 1] : Fin 2 → Fin S640000x128.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S40000x128 : S_.BroadcastsInDim S40000x128 (![] : Fin 0 → Fin S40000x128.rank)
  bcast_S_S40000 : S_.BroadcastsInDim S40000 (![] : Fin 0 → Fin S40000.rank)
  bcast_S40000_S40000x1_0 : S40000.BroadcastsInDim S40000x1 (![0] : Fin 1 → Fin S40000x1.rank)
  bcast_S40000x1_S40000x128_0_1 : S40000x1.BroadcastsInDim S40000x128 (![0, 1] : Fin 2 → Fin S40000x128.rank)
  reducesTo_S40000x128_S40000_d1 : S40000x128.ReducesTo [1] S40000
  bcast_S_S40000x1 : S_.BroadcastsInDim S40000x1 (![] : Fin 0 → Fin S40000x1.rank)
  bcast_S1x128_S40000x128_0_1 : S1x128.BroadcastsInDim S40000x128 (![0, 1] : Fin 2 → Fin S40000x128.rank)
  gather_S40000x128_S640000x1_S640000x128_1_0_n_n_0_1_1128_wf : GatherDims.WF S40000x128 S640000x1 S640000x128 [1] [0] [] [0] [] 1 ![1, 128]
  dot_S640000x128_S128x128_S640000x128_1_0_0_1_n_n_wf : DotDims.WF S640000x128 S128x128 S640000x128 [1] [0] [0] [1] [] []
  scatter_S40000x128_S640000x1_S640000x128_1_0_0_1_wf : ScatterDims.WF S40000x128 S640000x1 S640000x128 [1] [0] [0] 1
  scatter_S40000_S640000x1_S640000_n_0_0_1_wf : ScatterDims.WF S40000 S640000x1 S640000 [] [0] [0] 1
  dot_S40000x128_S128x128_S40000x128_1_0_0_1_n_n_wf : DotDims.WF S40000x128 S128x128 S40000x128 [1] [0] [0] [1] [] []

variable [Facts₀]

def gather_S40000x128_S640000x1_S640000x128_1_0_n_n_0_1_1128 : GatherDims S40000x128 S640000x1 S640000x128 where
  offsetDims := [1]
  collapsedSliceDims := [0]
  operandBatchingDims := []
  startIndicesBatchingDims := []
  startIndexMap := [0]
  indexVectorDim := 1
  sliceSizes := ![1, 128]
  wf := gather_S40000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def scatter_S40000x128_S640000x1_S640000x128_1_0_0_1 : ScatterDims S40000x128 S640000x1 S640000x128 where
  updateWindowDims := [1]
  insertedWindowDims := [0]
  scatterDimsToOperandDims := [0]
  indexVectorDim := 1
  wf := scatter_S40000x128_S640000x1_S640000x128_1_0_0_1_wf
def scatter_S40000_S640000x1_S640000_n_0_0_1 : ScatterDims S40000 S640000x1 S640000 where
  updateWindowDims := []
  insertedWindowDims := [0]
  scatterDimsToOperandDims := [0]
  indexVectorDim := 1
  wf := scatter_S40000_S640000x1_S640000_n_0_0_1_wf
def dot_S40000x128_S128x128_S40000x128_1_0_0_1_n_n : DotDims S40000x128 S128x128 S40000x128 where
  lhsContracting := [1]
  rhsContracting := [0]
  lhsNonContracting := [0]
  rhsNonContracting := [1]
  lhsBatch := []
  rhsBatch := []
  wf := dot_S40000x128_S128x128_S40000x128_1_0_0_1_n_n_wf

class Facts : Prop extends Facts₀ where

variable [Facts]
-- ==== Proof.RowUpdate.lean ====
/-
  One row of the update both programs compute, and its whole-array form.

  For a row `a` of the first operand and a row `e` of the second (both of length 128), two 128 x 128 matrices `A`, `E`
  and a scale `γ` and shift `β` of length 128:

    lin k   = (sum over d of a d * A d k) + (sum over d of e d * E d k)
    s k     = lin k * logistic (lin k)                      -- SiLU
    mu      = (sum over k of s k) / 128
    var     = (sum over k of (s k - mu)^2) / 128
    out j   = (s j - mu) * rsqrt (var + ε) * γ j + β j      -- layer normalisation

  on the extended reals, with the divisor 128 and ε the two float words both programs print. Every row of the result
  depends on its own row of the operands only, so the same function serves a block of rows and the whole array.
-/
import Idealize.ShloMosaic.PureOps.Ideal
import Idealize.ShloMosaic.PureOps.Ideal.Laws
import Idealize.ShloMosaic.Lib.ValueIdx

noncomputable section

namespace Cert.RowUpdate

open Idealize.ShloMosaic Idealize.ShloMosaic.ValueIdx

/-- The divisor of both means: the float word of 128.0. -/
abbrev c128 : EReal := Ideal.ofBits .f32 0x43000000#32
/-- The ε under the reciprocal square root: the float word both programs print for 1e-5. -/
abbrev eps : EReal := Ideal.ofBits .f32 0x3727C5AC#32

/-- The sum of the two linear maps at output column `k`. -/
def lin (a e : Fin 128 → EReal) (A E : Fin 128 → Fin 128 → EReal) (k : Fin 128) : EReal :=
  (∑ d : Fin 128, a d * A d k) + (∑ d : Fin 128, e d * E d k)

/-- SiLU: `x * 1 / (1 + e^(-x))`. -/
def silu (x : EReal) : EReal := x * Ideal.logistic x

/-- The mean of a row of 128 entries: its sum divided by the word of 128.0. -/
def mean (s : Fin 128 → EReal) : EReal := Ideal.div (∑ k : Fin 128, s k) c128

/-- Layer normalisation of one row, scaled and shifted. -/
def norm (s γ β : Fin 128 → EReal) (j : Fin 128) : EReal :=
  (s j - mean s) * Ideal.rsqrt (mean (fun k => (s k - mean s) * (s k - mean s)) + eps) * γ j + β j

/-- One row of the update. -/
def row (a e : Fin 128 → EReal) (A E : Fin 128 → Fin 128 → EReal) (γ β : Fin 128 → EReal) (j : Fin 128) : EReal :=
  norm (fun k => silu (lin a e A E k)) γ β j

/-- The update of every row of a pair of `[R, 128]` arrays: entry `(r, j)` is `row` of the operands' rows `r`. -/
def rows {R : ℕ} (x y : (⟨2, ![R, 128]⟩ : Shape).Idx → EReal) (A E : (⟨2, ![128, 128]⟩ : Shape).Idx → EReal)
    (γ β : (⟨1, ![128]⟩ : Shape).Idx → EReal) : (⟨2, ![R, 128]⟩ : Shape).Idx → EReal :=
  fun i => row (fun d => x (ix2 ⟨(i 0).val, idx2_lt0 i⟩ d)) (fun d => y (ix2 ⟨(i 0).val, idx2_lt0 i⟩ d))
    (fun d k => A (ix2 d k)) (fun d k => E (ix2 d k)) (fun j => γ (ix1 j)) (fun j => β (ix1 j)) ⟨(i 1).val, idx2_lt1 i⟩

theorem rows_ix2 {R : ℕ} (x y : (⟨2, ![R, 128]⟩ : Shape).Idx → EReal) (A E : (⟨2, ![128, 128]⟩ : Shape).Idx → EReal)
    (γ β : (⟨1, ![128]⟩ : Shape).Idx → EReal) (r : Fin R) (j : Fin 128) :
    rows x y A E γ β (ix2 r j) = row (fun d => x (ix2 r d)) (fun d => y (ix2 r d))
      (fun d k => A (ix2 d k)) (fun d k => E (ix2 d k)) (fun j => γ (ix1 j)) (fun j => β (ix1 j)) j := rfl

/-- The residual form: the second operand plus the update. -/
def resid {R : ℕ} (x y : (⟨2, ![R, 128]⟩ : Shape).Idx → EReal) (A E : (⟨2, ![128, 128]⟩ : Shape).Idx → EReal)
    (γ β : (⟨1, ![128]⟩ : Shape).Idx → EReal) : (⟨2, ![R, 128]⟩ : Shape).Idx → EReal :=
  fun i => y i + rows x y A E γ β i

end Cert.RowUpdate

end
-- ==== Proof.EdgeBody.lean ====
/-
  The edge kernel's body read at an index, on the extended reals.

  The body takes a [5000, 128] block `x` of the first operand and the block `y` of the second, two [128, 128] matrices,
  a [1, 128] scale and a [1, 128] shift. Row p of what it stores is one row of the update: the two contractions of the
  rows `x p` and `y p` against the matrices are added, SiLU is taken lane by lane, and the row is normalised by its mean
  and variance over the 128 lanes, scaled and shifted. Every non-pointwise operation of the body (a contraction, a lane
  sum kept as a column, a column or row broadcast) is first read at an index (p, q); pushing the index through the
  pointwise operations then leaves exactly the row function's expression.
-/
import proofs.«180846_j83734682402872_1_alg».proof.Proof.Gen.KernelIdeal.Skeleton
import proofs.«180846_j83734682402872_1_alg».proof.Proof.RowUpdate
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.EdgeBody

open Idealize.ShloMosaic Idealize.ShloMosaic.ValueIdx Idealize.SL.Sem Cert.KernelIdeal

/-! ## The contraction of a block row against a square matrix

The dot's dimension numbers contract the block's axis 1 with the matrix's axis 0; the block's axis 0 and the matrix's
axis 1 are kept. So at output index (p, q) and contraction coordinate d the two operand indices are (p, d) and (d, q). -/

theorem lhs_axis0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

theorem lhs_axis1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

theorem rhs_axis0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

theorem rhs_axis1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into a zero accumulator, at (p, q): the sum over d of block (p, d) times matrix (d, q). -/
theorem matmul_zero_apply (x : FVec Ideal S5000x128 .f32) (w : FVec Ideal S128x128 .f32) (p : Fin 5000) (q : Fin 128) :
    matmul dot_S5000x128_S128x128_S5000x128_1_0_0_1_n_n none x w (constant (F := Ideal) S5000x128 .f32 0x00000000#32) (ix2 p q)
      = ∑ d : Fin 128, x (ix2 p d) * w (ix2 d q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The lane sum kept as a column, and the column and row broadcasts -/

/-- The sum over the 128 lanes of row p, cast to a [5000, 1] column, read at (p, 0). -/
theorem lane_sum_apply (x : FVec Ideal S5000x128 .f32) (h : S5000x128.Reduces [1] S5000) (hc : S5000.ShapeCasts S5000x1)
    (hφ : FKind.Formats .f32) (hacc : (0x00000000#32 : BitVec 32) = 0x00000000#32) (p : Fin 5000) (c : Fin 1) :
    shapeCast S5000x1 (multiReduction (F := Ideal) .add [1] S5000 x 0x00000000#32 h hφ hacc) hc (ix2 p c)
      = ∑ k : Fin 128, x (ix2 p k) := by
  refine (shapeCast_apply _ hc (ix2 p c) (ix1 p) (by
    rw [Shape.rowMajor_val_one, Shape.rowMajor_val_two]
    show p.val = p.val * 1 + c.val
    have := c.isLt; omega)).trans ?_
  refine (Ideal.multiReduction_add_single x 0x00000000#32 h hφ hacc (ix1 p)).trans ?_
  refine Finset.sum_congr rfl fun k _ => ?_
  exact congrArg x (funext fun a => Fin.ext (by match a with | ⟨0, _⟩ => rfl | ⟨1, _⟩ => rfl))

/-- A [5000, 1] column broadcast along the lanes reads, at (p, q), the column at (p, 0). -/
theorem bcast_col_apply (y : FVec Ideal S5000x1 .f32) (h : S5000x1.Broadcasts S5000x128) (p : Fin 5000) (q : Fin 128) :
    broadcastTo S5000x128 y h (ix2 p q) = y (ix2 p (0 : Fin 1)) := by
  refine broadcastTo_apply y h (ix2 p q) (ix2 p (0 : Fin 1)) fun ax => ?_
  match ax with
  | ⟨0, _⟩ =>
    show p.val = if (5000 : Nat) = 1 then 0 else p.val
    rw [if_neg (by decide)]
  | ⟨1, _⟩ => rfl

/-- A [1, 128] row broadcast over the 5000 rows reads, at (p, q), the row at (0, q). -/
theorem bcast_row_apply (v : FVec Ideal S1x128 .f32) (h : S1x128.Broadcasts S5000x128) (p : Fin 5000) (q : Fin 128) :
    broadcastTo S5000x128 v h (ix2 p q) = v (ix2 (0 : Fin 1) q) :=
  broadcastTo_1b_ab_apply v h p q

/-! ## The two pointwise transcendental operations at an index -/

theorem logistic_apply (a : FVec Ideal S5000x128 .f32) (i : S5000x128.Idx) : logistic a i = Ideal.logistic (a i) := rfl

theorem rsqrt_apply (a : FVec Ideal S5000x1 .f32) (i : S5000x1.Idx) : rsqrt a i = Ideal.rsqrt (a i) := rfl

/-! ## The block's normalised update at an index -/

/-- Entry (p, q) of the normalised update is the row function of the operands' rows p, at q: once each contraction,
    lane sum and broadcast is read at its index, the two expressions are the same term (the words of 128.0 and of ε are
    the same words on both sides and are never evaluated). -/
theorem update_apply_aux (v0 v2 : FVec Ideal S5000x128 .f32) (v3 v6 : FVec Ideal S128x128 .f32) (v30 v34 : FVec Ideal S1x128 .f32)
    (p : Fin 5000) (q : Fin 128) :
    Gen.k0_pay2 (F := Ideal) v0 v2 v3 v6 v30 v34 (ix2 p q)
      = Cert.RowUpdate.row (fun d => v0 (ix2 p d)) (fun d => v2 (ix2 p d)) (fun d k => v3 (ix2 d k)) (fun d k => v6 (ix2 d k))
          (fun j => v30 (ix2 0 j)) (fun j => v34 (ix2 0 j)) q := by
  unfold Gen.k0_pay2
  simp -dsimp only [shapeCast_self, addf_apply, mulf_apply, subf_apply, divf_apply, broadcast_apply, logistic_apply, rsqrt_apply,
    bcast_col_apply, bcast_row_apply, lane_sum_apply, matmul_zero_apply]
  rfl

theorem update_apply (v0 v2 : Vec Ideal S5000x128 .f32) (v3 v6 : Vec Ideal S128x128 .f32) (v30 v34 : Vec Ideal S1x128 .f32) (p : Fin 5000) (q : Fin 128) :
    Gen.k0_pay2 (F := Ideal) v0 v2 v3 v6 v30 v34 (ix2 p q)
      = Cert.RowUpdate.row (fun d => v0 (ix2 p d)) (fun d => v2 (ix2 p d)) (fun d k => v3 (ix2 d k)) (fun d k => v6 (ix2 d k)) (fun j => v30 (ix2 0 j)) (fun j => v34 (ix2 0 j)) q :=
  update_apply_aux v0 v2 v3 v6 v30 v34 p q

/-! ## The residual sum -/

/-- The second stored value is the second operand's block plus the update, entry by entry. -/
theorem resid_apply (v2 : Vec Ideal S5000x128 .f32) (v37 : FVec Ideal S5000x128 .f32) (i : S5000x128.Idx) :
    Gen.k0_pay1 (F := Ideal) v2 v37 i = v2 i + v37 i := rfl

end Cert.KernelIdeal.EdgeBody

end
-- ==== Proof.EdgeArrays.lean ====
/-
  Region 0 (the edge kernel) as whole arrays.

  The region runs over 128 grid points; point t stages rows t * 5000 .. t * 5000 + 4999 of the two [640000, 128]
  operands and the whole of the two [128, 128] matrices and of the [1, 128] scale and shift, and writes back the same
  rows of its two outputs. Each output row depends on its own operand rows only, so block t of each output is block t
  of ONE whole-array function of the region-entry contents: the row update (second output) and the second operand plus
  the row update (first output). The blocks of the 128 points cover the arrays (row r lies in the block of point
  r / 5000), hence after the region each output array IS that function.
-/
import proofs.«180846_j83734682402872_1_alg».proof.Proof.Gen.KernelIdeal.Frame
import proofs.«180846_j83734682402872_1_alg».proof.Proof.RowUpdate
import proofs.«180846_j83734682402872_1_alg».proof.Proof.EdgeBody
import Idealize.ShloMosaic.Lib.Pipeline.Value
import Idealize.ShloMosaic.Lib.ValueIdx

set_option maxRecDepth 16384

noncomputable section

namespace Cert.KernelIdeal.EdgeArrays

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- The buffer contents when the region is entered: a parameter, as in the frame.
variable (V : (c : Dev nD) → (b : Ref sig .tc) → Buf (Elt Ideal) ((c : Thread nD τ).loc b))

theorem hz : (![0, 0] : Fin 2 → Nat) = fun _ => 0 := funext fun a => by fin_cases a <;> rfl

/-- A [1, 128] row read as a vector of length 128. -/
abbrev rowOf (g : (⟨2, ![1, 128]⟩ : Shape).Idx → EReal) : (⟨1, ![128]⟩ : Shape).Idx → EReal :=
  fun j => g (ix2 0 ⟨(j 0).val, (j 0).isLt⟩)

/-- The arrays the region reads, at their literal types: the two row operands, the two matrices, scale and shift. -/
abbrev X (c : Dev nD) : (⟨2, ![640000, 128]⟩ : Shape).Idx → EReal := V c main_v14
abbrev Y (c : Dev nD) : (⟨2, ![640000, 128]⟩ : Shape).Idx → EReal := V c main_arg2
abbrev A (c : Dev nD) : (⟨2, ![128, 128]⟩ : Shape).Idx → EReal := V c main_v15
abbrev E (c : Dev nD) : (⟨2, ![128, 128]⟩ : Shape).Idx → EReal := V c main_v16
abbrev Gm (c : Dev nD) : (⟨2, ![1, 128]⟩ : Shape).Idx → EReal := V c main_v19
abbrev Bt (c : Dev nD) : (⟨2, ![1, 128]⟩ : Shape).Idx → EReal := V c main_v20

/-- The update of every edge row, and the second operand plus it, as whole arrays of the region-entry contents. -/
abbrev addFeat (c : Dev nD) : (⟨2, ![640000, 128]⟩ : Shape).Idx → EReal :=
  Cert.RowUpdate.rows (X V c) (Y V c) (A V c) (E V c) (rowOf (Gm V c)) (rowOf (Bt V c))
abbrev edgeOut (c : Dev nD) : (⟨2, ![640000, 128]⟩ : Shape).Idx → EReal :=
  Cert.RowUpdate.resid (X V c) (Y V c) (A V c) (E V c) (rowOf (Gm V c)) (rowOf (Bt V c))

/-- The printed index maps over the grid: the row windows' block index is (t, 0), the others' is (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of point t's block of the first operand is row t * 5000 + p of the array. -/
theorem blk0_apply (c : Dev nD) (t : Fin cfg0.N) (p : Fin 5000) (d : Fin 128) (r : Fin 640000) (hr : r.val = t.val * 5000 + p.val) :
    iblk0 V c 0 t (ix2 p d) = X V c (ix2 r d) := by
  show V c main_v14 (((cfg0.win 0).blk t).view.emb (ix2 p d)) = V c main_v14 (ix2 r d)
  refine congrArg (V c main_v14) ?_
  obtain ⟨e0, e1, -⟩ := idx_facts t
  funext a; apply Fin.ext
  match a with
  | ⟨0, _⟩ => show win0_0.index t (0 : Fin 2) * 5000 + 1 * p.val = r.val; omega
  | ⟨1, _⟩ => show win0_0.index t (1 : Fin 2) * 128 + 1 * d.val = d.val; omega

/-- The same for the second operand. -/
theorem blk1_apply (c : Dev nD) (t : Fin cfg0.N) (p : Fin 5000) (d : Fin 128) (r : Fin 640000) (hr : r.val = t.val * 5000 + p.val) :
    iblk0 V c 1 t (ix2 p d) = Y V c (ix2 r d) := by
  show V c main_arg2 (((cfg0.win 1).blk t).view.emb (ix2 p d)) = V c main_arg2 (ix2 r d)
  refine congrArg (V c main_arg2) ?_
  obtain ⟨e0, e1, e2, e3, -⟩ := idx_facts t
  funext a; apply Fin.ext
  match a with
  | ⟨0, _⟩ => show win0_1.index t (0 : Fin 2) * 5000 + 1 * p.val = r.val; omega
  | ⟨1, _⟩ => show win0_1.index t (1 : Fin 2) * 128 + 1 * d.val = d.val; omega

/-- The first matrix is staged whole at every point. -/
theorem blk2_eq (c : Dev nD) (t : Fin cfg0.N) : (iblk0 V c 2 t : (⟨2, ![128, 128]⟩ : Shape).Idx → EReal) = A V c := by
  funext y
  show V c main_v15 (((cfg0.win 2).blk t).view.emb y) = V c main_v15 y
  refine congrArg (V c main_v15) ?_
  obtain ⟨e0, e1, e2, e3, e4, e5, -⟩ := idx_facts t
  funext a; apply Fin.ext
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The second matrix is staged whole at every point. -/
theorem blk3_eq (c : Dev nD) (t : Fin cfg0.N) : (iblk0 V c 3 t : (⟨2, ![128, 128]⟩ : Shape).Idx → EReal) = E V c := by
  funext y
  show V c main_v16 (((cfg0.win 3).blk t).view.emb y) = V c main_v16 y
  refine congrArg (V c main_v16) ?_
  obtain ⟨e0, e1, e2, e3, e4, e5, e6, e7, -⟩ := idx_facts t
  funext a; apply Fin.ext
  match a with
  | ⟨0, _⟩ => show win0_3.index t (0 : Fin 2) * 128 + 1 * (y 0).val = (y 0).val; omega
  | ⟨1, _⟩ => show win0_3.index t (1 : Fin 2) * 128 + 1 * (y 1).val = (y 1).val; omega

/-- The scale row is staged whole at every point. -/
theorem blk4_eq (c : Dev nD) (t : Fin cfg0.N) : (iblk0 V c 4 t : (⟨2, ![1, 128]⟩ : Shape).Idx → EReal) = Gm V c := by
  funext y
  show V c main_v19 (((cfg0.win 4).blk t).view.emb y) = V c main_v19 y
  refine congrArg (V c main_v19) ?_
  obtain ⟨e0, e1, e2, e3, e4, e5, e6, e7, e8, e9, -⟩ := idx_facts t
  funext a; apply Fin.ext
  match a with
  | ⟨0, _⟩ => show win0_4.index t (0 : Fin 2) * 1 + 1 * (y 0).val = (y 0).val; omega
  | ⟨1, _⟩ => show win0_4.index t (1 : Fin 2) * 128 + 1 * (y 1).val = (y 1).val; omega

/-- The shift row is staged whole at every point. -/
theorem blk5_eq (c : Dev nD) (t : Fin cfg0.N) : (iblk0 V c 5 t : (⟨2, ![1, 128]⟩ : Shape).Idx → EReal) = Bt V c := by
  funext y
  show V c main_v20 (((cfg0.win 5).blk t).view.emb y) = V c main_v20 y
  refine congrArg (V c main_v20) ?_
  obtain ⟨e0, e1, e2, e3, e4, e5, e6, e7, e8, e9, e10, e11, -⟩ := idx_facts t
  funext a; apply Fin.ext
  match a with
  | ⟨0, _⟩ => show win0_5.index t (0 : Fin 2) * 1 + 1 * (y 0).val = (y 0).val; omega
  | ⟨1, _⟩ => show win0_5.index t (1 : Fin 2) * 128 + 1 * (y 1).val = (y 1).val; omega

/-- The body's update at entry (p, q) of point t's block is the whole-array update at row t * 5000 + p. -/
theorem pay_at (c : Dev nD) (t : Fin cfg0.N) (p : Fin 5000) (q : Fin 128) (r : Fin 640000) (hr : r.val = t.val * 5000 + p.val) :
    Gen.k0_pay2 (F := Ideal) (iblk0 V c 0 t) (iblk0 V c 1 t) (iblk0 V c 2 t) (iblk0 V c 3 t) (iblk0 V c 4 t) (iblk0 V c 5 t) (ix2 p q)
      = addFeat V c (ix2 r q) := by
  refine (Cert.KernelIdeal.EdgeBody.update_apply (iblk0 V c 0 t) (iblk0 V c 1 t) (iblk0 V c 2 t) (iblk0 V c 3 t) (iblk0 V c 4 t) (iblk0 V c 5 t) p q).trans ?_
  refine Eq.trans ?_ (Cert.RowUpdate.rows_ix2 (X V c) (Y V c) (A V c) (E V c) (rowOf (Gm V c)) (rowOf (Bt V c)) r q).symm
  have e0 : (fun d => iblk0 V c 0 t (ix2 p d)) = fun d => X V c (ix2 r d) := funext fun d => blk0_apply V c t p d r hr
  have e1 : (fun d => iblk0 V c 1 t (ix2 p d)) = fun d => Y V c (ix2 r d) := funext fun d => blk1_apply V c t p d r hr
  rw [e0, e1, blk2_eq V c t, blk3_eq V c t, blk4_eq V c t, blk5_eq V c t]
  try rfl

/-- Entry (p, q) of point t's block of either output sits at row t * 5000 + p, column q of the array. -/
theorem emb6 (t : Fin cfg0.N) (p : Fin 5000) (q : Fin 128) (r : Fin 640000) (hr : r.val = t.val * 5000 + p.val) :
    ((cfg0.win 6).blk t).view.emb (ix2 p q) = (ix2 r q : (⟨2, ![640000, 128]⟩ : Shape).Idx) := by
  obtain ⟨e0, e1, e2, e3, e4, e5, e6, e7, e8, e9, e10, e11, e12, e13, e14, e15⟩ := idx_facts t
  funext a; apply Fin.ext
  match a with
  | ⟨0, _⟩ => show win0_6.index t (0 : Fin 2) * 5000 + 1 * p.val = r.val; omega
  | ⟨1, _⟩ => show win0_6.index t (1 : Fin 2) * 128 + 1 * q.val = q.val; omega

theorem emb7 (t : Fin cfg0.N) (p : Fin 5000) (q : Fin 128) (r : Fin 640000) (hr : r.val = t.val * 5000 + p.val) :
    ((cfg0.win 7).blk t).view.emb (ix2 p q) = (ix2 r q : (⟨2, ![640000, 128]⟩ : Shape).Idx) := by
  obtain ⟨e0, e1, e2, e3, e4, e5, e6, e7, e8, e9, e10, e11, e12, e13, e14, e15⟩ := idx_facts t
  funext a; apply Fin.ext
  match a with
  | ⟨0, _⟩ => show win0_7.index t (0 : Fin 2) * 5000 + 1 * p.val = r.val; omega
  | ⟨1, _⟩ => show win0_7.index t (1 : Fin 2) * 128 + 1 * q.val = q.val; omega

theorem row_lt (t : Fin cfg0.N) (p : Fin 5000) : t.val * 5000 + p.val < 640000 := by
  have h := t.isLt; have hN : cfg0.N = 128 := N_0; have hp := p.isLt; omega

/-- What point t writes back through the second output's window is block t of the whole-array update. -/
theorem flushed7_eq (c : Dev nD) (t : Fin cfg0.N) :
    (dat0 V c).flushed 7 t = ((cfg0.win 7).blk t).view.read (Elt Ideal) (addFeat V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show Gen.k0_pay2 (F := Ideal) (iblk0 V c 0 t) (iblk0 V c 1 t) (iblk0 V c 2 t) (iblk0 V c 3 t) (iblk0 V c 4 t) (iblk0 V c 5 t) (ix2 p q)
    = addFeat V c (((cfg0.win 7).blk t).view.emb (ix2 p q))
  rw [emb7 t p q ⟨_, row_lt t p⟩ rfl]
  exact pay_at V c t p q ⟨_, row_lt t p⟩ rfl

/-- What point t writes back through the first output's window is block t of the second operand plus the update. -/
theorem flushed6_eq (c : Dev nD) (t : Fin cfg0.N) :
    (dat0 V c).flushed 6 t = ((cfg0.win 6).blk t).view.read (Elt Ideal) (edgeOut V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  show Gen.k0_pay1 (F := Ideal) (iblk0 V c 1 t)
      (Gen.k0_pay2 (F := Ideal) (iblk0 V c 0 t) (iblk0 V c 1 t) (iblk0 V c 2 t) (iblk0 V c 3 t) (iblk0 V c 4 t) (iblk0 V c 5 t)) (ix2 p q)
    = edgeOut V c (((cfg0.win 6).blk t).view.emb (ix2 p q))
  rw [emb6 t p q ⟨_, row_lt t p⟩ rfl]
  refine (Cert.KernelIdeal.EdgeBody.resid_apply (iblk0 V c 1 t)
    (Gen.k0_pay2 (F := Ideal) (iblk0 V c 0 t) (iblk0 V c 1 t) (iblk0 V c 2 t) (iblk0 V c 3 t) (iblk0 V c 4 t) (iblk0 V c 5 t)) (ix2 p q)).trans ?_
  rw [blk1_apply V c t p q ⟨_, row_lt t p⟩ rfl, pay_at V c t p q ⟨_, row_lt t p⟩ rfl]
  rfl

/-- An index is in point t's block of an output iff each coordinate is in the block's range on its axis. -/
theorem mem_blk6 (t : Fin cfg0.N) (i : (⟨2, ![640000, 128]⟩ : Shape).Idx) :
    i ∈ ((cfg0.win 6).blk t).view.set ↔ ∀ a : Fin 2, win0_6.index t a * S5000x128.size a ≤ (i a).val ∧ (i a).val < win0_6.index t a * S5000x128.size a + S5000x128.size a := by
  show i ∈ ((View.whole main_v23_0).slice (win0_6.rect t)).set ↔ _
  rw [View.set_slice_whole, Rect.mem_set_unit]
  exact Iff.rfl

theorem mem_blk7 (t : Fin cfg0.N) (i : (⟨2, ![640000, 128]⟩ : Shape).Idx) :
    i ∈ ((cfg0.win 7).blk t).view.set ↔ ∀ a : Fin 2, win0_7.index t a * S5000x128.size a ≤ (i a).val ∧ (i a).val < win0_7.index t a * S5000x128.size a + S5000x128.size a := by
  show i ∈ ((View.whole main_v23_1).slice (win0_7.rect t)).set ↔ _
  rw [View.set_slice_whole, Rect.mem_set_unit]
  exact Iff.rfl

/-- Row r lies in the block of point r / 5000. -/
theorem cover6 (i : (⟨2, ![640000, 128]⟩ : Shape).Idx) :
    ∃ t : Fin cfg0.N, (cfg0.win 6).flush t = true ∧ i ∈ ((cfg0.win 6).blk t).view.set := by
  have hi0 : (i 0).val < 640000 := (i 0).isLt
  have hi1 : (i 1).val < 128 := (i 1).isLt
  have hN : cfg0.N = 128 := N_0
  have ht : (i 0).val / 5000 < cfg0.N := by omega
  obtain ⟨e0, e1, e2, e3, e4, e5, e6, e7, e8, e9, e10, e11, e12, e13, e14, e15⟩ := idx_facts ⟨(i 0).val / 5000, ht⟩
  refine ⟨⟨(i 0).val / 5000, ht⟩, flush0_6 _, ?_⟩
  rw [mem_blk6]
  intro a
  match a with
  | ⟨0, _⟩ =>
    show win0_6.index ⟨(i 0).val / 5000, ht⟩ (0 : Fin 2) * 5000 ≤ (i 0).val ∧ (i 0).val < win0_6.index ⟨(i 0).val / 5000, ht⟩ (0 : Fin 2) * 5000 + 5000
    simp only at e12; omega
  | ⟨1, _⟩ =>
    show win0_6.index ⟨(i 0).val / 5000, ht⟩ (1 : Fin 2) * 128 ≤ (i 1).val ∧ (i 1).val < win0_6.index ⟨(i 0).val / 5000, ht⟩ (1 : Fin 2) * 128 + 128
    omega

theorem cover7 (i : (⟨2, ![640000, 128]⟩ : Shape).Idx) :
    ∃ t : Fin cfg0.N, (cfg0.win 7).flush t = true ∧ i ∈ ((cfg0.win 7).blk t).view.set := by
  have hi0 : (i 0).val < 640000 := (i 0).isLt
  have hi1 : (i 1).val < 128 := (i 1).isLt
  have hN : cfg0.N = 128 := N_0
  have ht : (i 0).val / 5000 < cfg0.N := by omega
  obtain ⟨e0, e1, e2, e3, e4, e5, e6, e7, e8, e9, e10, e11, e12, e13, e14, e15⟩ := idx_facts ⟨(i 0).val / 5000, ht⟩
  refine ⟨⟨(i 0).val / 5000, ht⟩, flush0_7 _, ?_⟩
  rw [mem_blk7]
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    simp only at e14; omega
  | ⟨1, _⟩ =>
    show win0_7.index ⟨(i 0).val / 5000, ht⟩ (1 : Fin 2) * 128 ≤ (i 1).val ∧ (i 1).val < win0_7.index ⟨(i 0).val / 5000, ht⟩ (1 : Fin 2) * 128 + 128
    omega

/-- After the region the first output array holds the second operand plus the update of every edge row, -/
theorem edgeOut_final (c : Dev nD) : (dat0 V c).arrAt 6 cfg0.N = edgeOut V c :=
  (dat0 V c).arrAt_eq_of_cover 6 (edgeOut V c) (fun t _ => flushed6_eq V c t) cover6

/-- and the second output array the update itself. -/
theorem addFeat_final (c : Dev nD) : (dat0 V c).arrAt 7 cfg0.N = addFeat V c :=
  (dat0 V c).arrAt_eq_of_cover 7 (addFeat V c) (fun t _ => flushed7_eq V c t) cover7

end Cert.KernelIdeal.EdgeArrays

end
-- ==== Proof.NodeBody.lean ====
/-
  The node kernel's body read at an index, on the extended reals.

  The body takes a [2000, 128] block `x` of the first operand and the block `y` of the second, two [128, 128] matrices,
  a [1, 128] scale and a [1, 128] shift. Row p of what it stores is row p of `y` plus one row of the update: the two
  contractions of the rows `x p` and `y p` against the matrices are added, SiLU is taken lane by lane, and the row is
  normalised by its mean and variance over the 128 lanes, scaled and shifted. Every non-pointwise operation of the body
  (a contraction, a lane sum kept as a column, a column or row broadcast) is first read at an index (p, q); pushing the
  index through the pointwise operations then leaves exactly the residual plus the row function's expression.
-/
import proofs.«180846_j83734682402872_1_alg».proof.Proof.Gen.KernelIdeal.Skeleton
import proofs.«180846_j83734682402872_1_alg».proof.Proof.RowUpdate
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.NodeBody

open Idealize.ShloMosaic Idealize.ShloMosaic.ValueIdx Idealize.SL.Sem Cert.KernelIdeal

/-! ## The contraction of a block row against a square matrix

The dot's dimension numbers contract the block's axis 1 with the matrix's axis 0; the block's axis 0 and the matrix's
axis 1 are kept. So at output index (p, q) and contraction coordinate d the two operand indices are (p, d) and (d, q). -/

theorem lhs_axis0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl

theorem lhs_axis1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c

theorem rhs_axis0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c

theorem rhs_axis1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product into a zero accumulator, at (p, q): the sum over d of block (p, d) times matrix (d, q). -/
theorem matmul_zero_apply (x : FVec Ideal S2000x128 .f32) (w : FVec Ideal S128x128 .f32) (p : Fin 2000) (q : Fin 128) :
    matmul dot_S2000x128_S128x128_S2000x128_1_0_0_1_n_n none x w (constant (F := Ideal) S2000x128 .f32 0x00000000#32) (ix2 p q)
      = ∑ d : Fin 128, x (ix2 p d) * w (ix2 d q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_axis0 _ _
    | ⟨1, _⟩ => exact (lhs_axis1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_axis0 _ _).trans hk
    | ⟨1, _⟩ => exact rhs_axis1 _ _)
  rw [el, er]

/-! ## The lane sum kept as a column, and the column and row broadcasts -/

/-- The sum over the 128 lanes of row p, cast to a [2000, 1] column, read at (p, 0). -/
theorem lane_sum_apply (x : FVec Ideal S2000x128 .f32) (h : S2000x128.Reduces [1] S2000) (hc : S2000.ShapeCasts S2000x1)
    (hφ : FKind.Formats .f32) (hacc : (0x00000000#32 : BitVec 32) = 0x00000000#32) (p : Fin 2000) (c : Fin 1) :
    shapeCast S2000x1 (multiReduction (F := Ideal) .add [1] S2000 x 0x00000000#32 h hφ hacc) hc (ix2 p c)
      = ∑ k : Fin 128, x (ix2 p k) := by
  refine (shapeCast_apply _ hc (ix2 p c) (ix1 p) (by
    rw [Shape.rowMajor_val_one, Shape.rowMajor_val_two]
    show p.val = p.val * 1 + c.val
    have := c.isLt; omega)).trans ?_
  refine (Ideal.multiReduction_add_single x 0x00000000#32 h hφ hacc (ix1 p)).trans ?_
  refine Finset.sum_congr rfl fun k _ => ?_
  exact congrArg x (funext fun a => Fin.ext (by match a with | ⟨0, _⟩ => rfl | ⟨1, _⟩ => rfl))

/-- A [2000, 1] column broadcast along the lanes reads, at (p, q), the column at (p, 0). -/
theorem bcast_col_apply (y : FVec Ideal S2000x1 .f32) (h : S2000x1.Broadcasts S2000x128) (p : Fin 2000) (q : Fin 128) :
    broadcastTo S2000x128 y h (ix2 p q) = y (ix2 p (0 : Fin 1)) := by
  refine broadcastTo_apply y h (ix2 p q) (ix2 p (0 : Fin 1)) fun ax => ?_
  match ax with
  | ⟨0, _⟩ =>
    show p.val = if (2000 : Nat) = 1 then 0 else p.val
    rw [if_neg (by decide)]
  | ⟨1, _⟩ => rfl

/-- A [1, 128] row broadcast over the 2000 rows reads, at (p, q), the row at (0, q). -/
theorem bcast_row_apply (v : FVec Ideal S1x128 .f32) (h : S1x128.Broadcasts S2000x128) (p : Fin 2000) (q : Fin 128) :
    broadcastTo S2000x128 v h (ix2 p q) = v (ix2 (0 : Fin 1) q) :=
  broadcastTo_1b_ab_apply v h p q

/-! ## The two pointwise transcendental operations at an index -/

theorem logistic_apply (a : FVec Ideal S2000x128 .f32) (i : S2000x128.Idx) : logistic a i = Ideal.logistic (a i) := rfl

theorem rsqrt_apply (a : FVec Ideal S2000x1 .f32) (i : S2000x1.Idx) : rsqrt a i = Ideal.rsqrt (a i) := rfl

/-! ## The block's residual form at an index -/

/-- Entry (p, q) of what the body stores is the second operand's entry plus the row function of the operands' rows p,
    at q: once each contraction, lane sum and broadcast is read at its index, the two expressions are the same term
    (the words of 128.0 and of ε are the same words on both sides and are never evaluated). -/
theorem resid_apply_aux (v0 v2 : FVec Ideal S2000x128 .f32) (v3 v6 : FVec Ideal S128x128 .f32) (v30 v34 : FVec Ideal S1x128 .f32)
    (p : Fin 2000) (q : Fin 128) :
    Gen.k1_pay1 (F := Ideal) v0 v2 v3 v6 v30 v34 (ix2 p q)
      = v2 (ix2 p q) + Cert.RowUpdate.row (fun d => v0 (ix2 p d)) (fun d => v2 (ix2 p d)) (fun d k => v3 (ix2 d k)) (fun d k => v6 (ix2 d k))
          (fun j => v30 (ix2 0 j)) (fun j => v34 (ix2 0 j)) q := by
  unfold Gen.k1_pay1
  simp -dsimp only [shapeCast_self, addf_apply, mulf_apply, subf_apply, divf_apply, broadcast_apply, logistic_apply, rsqrt_apply,
    bcast_col_apply, bcast_row_apply, lane_sum_apply, matmul_zero_apply]
  rfl

theorem resid_apply (v0 v2 : Vec Ideal S2000x128 .f32) (v3 v6 : Vec Ideal S128x128 .f32) (v30 v34 : Vec Ideal S1x128 .f32) (p : Fin 2000) (q : Fin 128) :
    Gen.k1_pay1 (F := Ideal) v0 v2 v3 v6 v30 v34 (ix2 p q)
      = v2 (ix2 p q) + Cert.RowUpdate.row (fun d => v0 (ix2 p d)) (fun d => v2 (ix2 p d)) (fun d k => v3 (ix2 d k)) (fun d k => v6 (ix2 d k)) (fun j => v30 (ix2 0 j)) (fun j => v34 (ix2 0 j)) q :=
  resid_apply_aux v0 v2 v3 v6 v30 v34 p q

end Cert.KernelIdeal.NodeBody

end
-- ==== Proof.NodeArrays.lean ====
/-
  Region 1 (the node kernel) as a whole array.

  The region runs over 20 grid points; point t stages rows t * 2000 .. t * 2000 + 1999 of the two [40000, 128] operands
  and the whole of the two [128, 128] matrices and of the [1, 128] scale and shift, and writes back the same rows of its
  output: the second operand plus the row update. Each output row depends on its own operand rows only, so block t of the
  output is block t of one whole-array function of the region-entry contents, and the 20 blocks cover the array (row r
  lies in the block of point r / 2000).
-/
import proofs.«180846_j83734682402872_1_alg».proof.Proof.Gen.KernelIdeal.Frame
import proofs.«180846_j83734682402872_1_alg».proof.Proof.RowUpdate
import proofs.«180846_j83734682402872_1_alg».proof.Proof.NodeBody
import Idealize.ShloMosaic.Lib.Pipeline.Value
import Idealize.ShloMosaic.Lib.ValueIdx

set_option maxRecDepth 16384

noncomputable section

namespace Cert.KernelIdeal.NodeArrays

open Cert.KernelIdeal Cert.KernelIdeal.Gen
open Idealize.ShloMosaic Idealize.ShloMosaic.TcCoe Idealize.ShloMosaic.ValueIdx
open Idealize.SL.Sem
open Idealize.ShloMosaic.Pipeline (Dat Cfg Window)

-- The buffer contents when the region is entered: a parameter, as in the frame.
variable (V : (c : Dev nD) → (b : Ref sig .tc) → Buf (Elt Ideal) ((c : Thread nD τ).loc b))

theorem hz : (![0, 0] : Fin 2 → Nat) = fun _ => 0 := funext fun a => by fin_cases a <;> rfl

/-- A [1, 128] row read as a vector of length 128. -/
abbrev rowOf (g : (⟨2, ![1, 128]⟩ : Shape).Idx → EReal) : (⟨1, ![128]⟩ : Shape).Idx → EReal :=
  fun j => g (ix2 0 ⟨(j 0).val, (j 0).isLt⟩)

/-- The arrays the region reads, at their literal types: the two row operands, the two matrices, scale and shift. -/
abbrev X (c : Dev nD) : (⟨2, ![40000, 128]⟩ : Shape).Idx → EReal := V c main_v35
abbrev Y (c : Dev nD) : (⟨2, ![40000, 128]⟩ : Shape).Idx → EReal := V c main_arg1
abbrev A (c : Dev nD) : (⟨2, ![128, 128]⟩ : Shape).Idx → EReal := V c main_v17
abbrev E (c : Dev nD) : (⟨2, ![128, 128]⟩ : Shape).Idx → EReal := V c main_v18
abbrev Gm (c : Dev nD) : (⟨2, ![1, 128]⟩ : Shape).Idx → EReal := V c main_v21
abbrev Bt (c : Dev nD) : (⟨2, ![1, 128]⟩ : Shape).Idx → EReal := V c main_v22

/-- The second operand plus the update of every node row, as a whole array of the region-entry contents. -/
abbrev nodeOut (c : Dev nD) : (⟨2, ![40000, 128]⟩ : Shape).Idx → EReal :=
  Cert.RowUpdate.resid (X V c) (Y V c) (A V c) (E V c) (rowOf (Gm V c)) (rowOf (Bt V c))

/-- The printed index maps over the grid: the row windows' block index is (t, 0), the others' is (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of point t's block of the first operand is row t * 2000 + p of the array. -/
theorem blk0_apply (c : Dev nD) (t : Fin cfg1.N) (p : Fin 2000) (d : Fin 128) (r : Fin 40000) (hr : r.val = t.val * 2000 + p.val) :
    iblk1 V c 0 t (ix2 p d) = X V c (ix2 r d) := by
  show V c main_v35 (((cfg1.win 0).blk t).view.emb (ix2 p d)) = V c main_v35 (ix2 r d)
  refine congrArg (V c main_v35) ?_
  obtain ⟨e0, e1, -⟩ := idx_facts t
  funext a; apply Fin.ext
  match a with
  | ⟨0, _⟩ => show win1_0.index t (0 : Fin 2) * 2000 + 1 * p.val = r.val; omega
  | ⟨1, _⟩ => show win1_0.index t (1 : Fin 2) * 128 + 1 * d.val = d.val; omega

/-- The same for the second operand. -/
theorem blk1_apply (c : Dev nD) (t : Fin cfg1.N) (p : Fin 2000) (d : Fin 128) (r : Fin 40000) (hr : r.val = t.val * 2000 + p.val) :
    iblk1 V c 1 t (ix2 p d) = Y V c (ix2 r d) := by
  show V c main_arg1 (((cfg1.win 1).blk t).view.emb (ix2 p d)) = V c main_arg1 (ix2 r d)
  refine congrArg (V c main_arg1) ?_
  obtain ⟨e0, e1, e2, e3, -⟩ := idx_facts t
  funext a; apply Fin.ext
  match a with
  | ⟨0, _⟩ => show win1_1.index t (0 : Fin 2) * 2000 + 1 * p.val = r.val; omega
  | ⟨1, _⟩ => show win1_1.index t (1 : Fin 2) * 128 + 1 * d.val = d.val; omega

/-- The first matrix is staged whole at every point. -/
theorem blk2_eq (c : Dev nD) (t : Fin cfg1.N) : (iblk1 V c 2 t : (⟨2, ![128, 128]⟩ : Shape).Idx → EReal) = A V c := by
  funext y
  show V c main_v17 (((cfg1.win 2).blk t).view.emb y) = V c main_v17 y
  refine congrArg (V c main_v17) ?_
  obtain ⟨e0, e1, e2, e3, e4, e5, -⟩ := idx_facts t
  funext a; apply Fin.ext
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- The second matrix is staged whole at every point. -/
theorem blk3_eq (c : Dev nD) (t : Fin cfg1.N) : (iblk1 V c 3 t : (⟨2, ![128, 128]⟩ : Shape).Idx → EReal) = E V c := by
  funext y
  show V c main_v18 (((cfg1.win 3).blk t).view.emb y) = V c main_v18 y
  refine congrArg (V c main_v18) ?_
  obtain ⟨e0, e1, e2, e3, e4, e5, e6, e7, -⟩ := idx_facts t
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The scale row is staged whole at every point. -/
theorem blk4_eq (c : Dev nD) (t : Fin cfg1.N) : (iblk1 V c 4 t : (⟨2, ![1, 128]⟩ : Shape).Idx → EReal) = Gm V c := by
  funext y
  show V c main_v21 (((cfg1.win 4).blk t).view.emb y) = V c main_v21 y
  refine congrArg (V c main_v21) ?_
  obtain ⟨e0, e1, e2, e3, e4, e5, e6, e7, e8, e9, -⟩ := idx_facts t
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The shift row is staged whole at every point. -/
theorem blk5_eq (c : Dev nD) (t : Fin cfg1.N) : (iblk1 V c 5 t : (⟨2, ![1, 128]⟩ : Shape).Idx → EReal) = Bt V c := by
  funext y
  show V c main_v22 (((cfg1.win 5).blk t).view.emb y) = V c main_v22 y
  refine congrArg (V c main_v22) ?_
  obtain ⟨e0, e1, e2, e3, e4, e5, e6, e7, e8, e9, e10, e11, -⟩ := idx_facts t
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The body's result at entry (p, q) of point t's block is the whole-array function at row t * 2000 + p. -/
theorem pay_at (c : Dev nD) (t : Fin cfg1.N) (p : Fin 2000) (q : Fin 128) (r : Fin 40000) (hr : r.val = t.val * 2000 + p.val) :
    Gen.k1_pay1 (F := Ideal) (iblk1 V c 0 t) (iblk1 V c 1 t) (iblk1 V c 2 t) (iblk1 V c 3 t) (iblk1 V c 4 t) (iblk1 V c 5 t) (ix2 p q)
      = nodeOut V c (ix2 r q) := by
  refine (Cert.KernelIdeal.NodeBody.resid_apply (iblk1 V c 0 t) (iblk1 V c 1 t) (iblk1 V c 2 t) (iblk1 V c 3 t) (iblk1 V c 4 t) (iblk1 V c 5 t) p q).trans ?_
  show _ = Y V c (ix2 r q) + Cert.RowUpdate.rows (X V c) (Y V c) (A V c) (E V c) (rowOf (Gm V c)) (rowOf (Bt V c)) (ix2 r q)
  rw [Cert.RowUpdate.rows_ix2 (X V c) (Y V c) (A V c) (E V c) (rowOf (Gm V c)) (rowOf (Bt V c)) r q]
  have e0 : (fun d => iblk1 V c 0 t (ix2 p d)) = fun d => X V c (ix2 r d) := funext fun d => blk0_apply V c t p d r hr
  have e1 : (fun d => iblk1 V c 1 t (ix2 p d)) = fun d => Y V c (ix2 r d) := funext fun d => blk1_apply V c t p d r hr
  rw [e0, e1, blk1_apply V c t p q r hr, blk2_eq V c t, blk3_eq V c t, blk4_eq V c t, blk5_eq V c t]
  try rfl

/-- Entry (p, q) of point t's block of the output sits at row t * 2000 + p, column q of the array. -/
theorem emb6 (t : Fin cfg1.N) (p : Fin 2000) (q : Fin 128) (r : Fin 40000) (hr : r.val = t.val * 2000 + p.val) :
    ((cfg1.win 6).blk t).view.emb (ix2 p q) = (ix2 r q : (⟨2, ![40000, 128]⟩ : Shape).Idx) := by
  obtain ⟨e0, e1, e2, e3, e4, e5, e6, e7, e8, e9, e10, e11, e12, e13⟩ := idx_facts t
  funext a; apply Fin.ext
  match a with
  | ⟨0, _⟩ => show win1_6.index t (0 : Fin 2) * 2000 + 1 * p.val = r.val; omega
  | ⟨1, _⟩ => show win1_6.index t (1 : Fin 2) * 128 + 1 * q.val = q.val; omega

theorem row_lt (t : Fin cfg1.N) (p : Fin 2000) : t.val * 2000 + p.val < 40000 := by
  have h := t.isLt; have hN : cfg1.N = 20 := N_1; have hp := p.isLt; omega

/-- What point t writes back is block t of the whole-array function. -/
theorem flushed6_eq (c : Dev nD) (t : Fin cfg1.N) :
    (dat1 V c).flushed 6 t = ((cfg1.win 6).blk t).view.read (Elt Ideal) (nodeOut V c) := by
  show (cfg1.win 6).cut (grid1.coords t) ((dat1 V c).after 6 t) = _
  rw [after1_6]
  unfold out1_6
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show Gen.k1_pay1 (F := Ideal) (iblk1 V c 0 t) (iblk1 V c 1 t) (iblk1 V c 2 t) (iblk1 V c 3 t) (iblk1 V c 4 t) (iblk1 V c 5 t) (ix2 p q)
    = nodeOut V c (((cfg1.win 6).blk t).view.emb (ix2 p q))
  rw [emb6 t p q ⟨_, row_lt t p⟩ rfl]
  exact pay_at V c t p q ⟨_, row_lt t p⟩ rfl

/-- An index is in point t's block of the output iff each coordinate is in the block's range on its axis. -/
theorem mem_blk6 (t : Fin cfg1.N) (i : (⟨2, ![40000, 128]⟩ : Shape).Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v36).slice (win1_6.rect t)).set ↔ _
  rw [View.set_slice_whole, Rect.mem_set_unit]
  exact Iff.rfl

/-- Row r lies in the block of point r / 2000. -/
theorem cover6 (i : (⟨2, ![40000, 128]⟩ : Shape).Idx) :
    ∃ t : Fin cfg1.N, (cfg1.win 6).flush t = true ∧ i ∈ ((cfg1.win 6).blk t).view.set := by
  have hi0 : (i 0).val < 40000 := (i 0).isLt
  have hi1 : (i 1).val < 128 := (i 1).isLt
  have hN : cfg1.N = 20 := N_1
  have ht : (i 0).val / 2000 < cfg1.N := by omega
  obtain ⟨e0, e1, e2, e3, e4, e5, e6, e7, e8, e9, e10, e11, e12, e13⟩ := idx_facts ⟨(i 0).val / 2000, ht⟩
  refine ⟨⟨(i 0).val / 2000, ht⟩, flush1_6 _, ?_⟩
  rw [mem_blk6]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    simp only at e12; omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    omega

/-- After the region the output array holds the second operand plus the update of every node row. -/
theorem nodeOut_final (c : Dev nD) : (dat1 V c).arrAt 6 cfg1.N = nodeOut V c :=
  (dat1 V c).arrAt_eq_of_cover 6 (nodeOut V c) (fun t _ => flushed6_eq V c t) cover6

end Cert.KernelIdeal.NodeArrays

end
-- ==== Proof.KernelValue.lean ====
/-
  The idealized kernel's two results as functions of the argument arrays.

  @main is: a host stretch (the gather-add of node rows per edge, four matrix transposes, four [128] → [1, 128]
  reshapes), the edge region, a host stretch (the scatter-mean of the edge update onto the target nodes), the node
  region. Region 0's entry contents are the first stretch's terms of the arguments; its two output arrays are the
  whole-array functions of those (the edge region as whole arrays); region 1's entry contents are the second stretch's
  term of region 0's second output, and arguments and first-stretch buffers that nothing in between writes; its output
  array is the whole-array function of those. The gather-add and the scatter-mean are carried as one named function
  each and never opened: the reference applies the same operations.
-/
import proofs.«180846_j83734682402872_1_alg».proof.Proof.Gen.KernelIdeal.Frame
import proofs.«180846_j83734682402872_1_alg».proof.Proof.KernelRun
import proofs.«180846_j83734682402872_1_alg».proof.Proof.EdgeArrays
import proofs.«180846_j83734682402872_1_alg».proof.Proof.NodeArrays
import Idealize.ShloMosaic.Lib.StableHlo.Run
import Idealize.ShloMosaic.Lib.ValueLayout
import Idealize.ShloMosaic.Lib.ValueIdx

set_option maxRecDepth 16384

noncomputable section

namespace Cert.KernelIdeal.KernelValue

open Cert.KernelIdeal Cert.KernelIdeal.Gen
open Idealize.ShloMosaic Idealize.ShloMosaic.TcCoe Idealize.ShloMosaic.ValueIdx Idealize.ShloMosaic.StableHlo
open Idealize.SL.Sem

/-! ## The host chains, named -/

/-- A node index as the gather reads it: a negative index counts from the end of the table. -/
def wrapIdx (i : IVec S640000 32) : IVec S640000x1 32 :=
  broadcastInDim S640000x1 ![0] bcast_S640000_S640000x1_0
    (select (cmpi .slt i (broadcastInDim S640000 ![] bcast_S_S640000 (constantI S_ 32 0#32)))
      (addi i (broadcastInDim S640000 ![] bcast_S_S640000 (constantI S_ 32 40000#32))) i)

/-- The sum of the two gathered node rows of every edge. -/
def gatherAdd (a0 a1 : FVec Ideal S40000x128 .f32) (i11 i12 : IVec S640000 32) : FVec Ideal S640000x128 .f32 :=
  addf (Host.gather gather_S40000x128_S640000x1_S640000x128_1_0_n_n_0_1_1128 a0 (wrapIdx i11))
    (Host.gather gather_S40000x128_S640000x1_S640000x128_1_0_n_n_0_1_1128 a1 (wrapIdx i12))

/-- A weight matrix transposed. -/
def tr (a : FVec Ideal S128x128 .f32) : FVec Ideal S128x128 .f32 :=
  transpose S128x128 [1, 0] a transposes_S128x128_S128x128_1_0

/-- The mean of the edge rows landing on each target node: their sum divided by their count, the count at least one. -/
def scatterMean (u : FVec Ideal S640000x128 .f32) (i12 : IVec S640000 32) : FVec Ideal S40000x128 .f32 :=
  Host.divf
    (Host.scatterAdd scatter_S40000x128_S640000x1_S640000x128_1_0_0_1
      (broadcastInDim S40000x128 ![] bcast_S_S40000x128 (constant S_ .f32 0x00000000#32))
      (broadcastInDim S640000x1 ![0] bcast_S640000_S640000x1_0 i12) u)
    (broadcastInDim S40000x128 ![0, 1] bcast_S40000x1_S40000x128_0_1
      (broadcastInDim S40000x1 ![0] bcast_S40000_S40000x1_0
        (maximumf
          (Host.scatterAdd scatter_S40000_S640000x1_S640000_n_0_0_1
            (broadcastInDim S40000 ![] bcast_S_S40000 (constant S_ .f32 0x00000000#32))
            (broadcastInDim S640000x1 ![0] bcast_S640000_S640000x1_0 i12)
            (broadcastInDim S640000 ![] bcast_S_S640000 (constant S_ .f32 0x3F800000#32)))
          (broadcastInDim S40000 ![] bcast_S_S40000 (constant S_ .f32 0x3F800000#32)))))

/-! ## The two results as functions of the arguments -/

/-- The edge update of every edge row. -/
def addFeatValue (a0 a1 : FVec Ideal S40000x128 .f32) (a2 : FVec Ideal S640000x128 .f32) (a3 a4 : FVec Ideal S128x128 .f32)
    (a7 a8 : FVec Ideal S128 .f32) (i11 i12 : IVec S640000 32) : FVec Ideal S640000x128 .f32 :=
  Cert.RowUpdate.rows (gatherAdd a0 a1 i11 i12) a2 (tr a3) (tr a4) a7 a8

/-- The first result: the edge features plus their update. -/
def edgeValue (a0 a1 : FVec Ideal S40000x128 .f32) (a2 : FVec Ideal S640000x128 .f32) (a3 a4 : FVec Ideal S128x128 .f32)
    (a7 a8 : FVec Ideal S128 .f32) (i11 i12 : IVec S640000 32) : FVec Ideal S640000x128 .f32 :=
  Cert.RowUpdate.resid (gatherAdd a0 a1 i11 i12) a2 (tr a3) (tr a4) a7 a8

/-- The second result: the target node features plus the update from the scatter-mean of the edge update. -/
def nodeValue (a0 a1 : FVec Ideal S40000x128 .f32) (a2 : FVec Ideal S640000x128 .f32) (a3 a4 a5 a6 : FVec Ideal S128x128 .f32)
    (a7 a8 a9 a10 : FVec Ideal S128 .f32) (i11 i12 : IVec S640000 32) : FVec Ideal S40000x128 .f32 :=
  Cert.RowUpdate.resid (scatterMean (addFeatValue a0 a1 a2 a3 a4 a7 a8 i11 i12) i12) a1 (tr a5) (tr a6) a9 a10

variable (m : (ℓ : Loc nD τ sig) → Buf (Elt Ideal) ℓ) (ρ : Dev nD → PrngReg)

/-! ## Region 0's entry contents -/

theorem V1_v14 (c : Dev nD) : (V1 m ρ c main_v14 : S640000x128.Idx → EReal)
    = gatherAdd (m ((c : Thread nD τ).loc main_arg0)) (m ((c : Thread nD τ).loc main_arg1)) (m ((c : Thread nD τ).loc main_arg11)) (m ((c : Thread nD τ).loc main_arg12)) := by
  show StableHlo.after hostOps0 (W0 m ρ c) (Proc.devRef .tc main_v14) = _
  after_results_simp
  rfl

theorem V1_arg2 (c : Dev nD) : (V1 m ρ c main_arg2 : S640000x128.Idx → EReal) = (m ((c : Thread nD τ).loc main_arg2)) := by
  show StableHlo.after hostOps0 (W0 m ρ c) (Proc.devRef .tc main_arg2) = _
  after_results
  try rfl

theorem V1_v15 (c : Dev nD) : (V1 m ρ c main_v15 : S128x128.Idx → EReal) = tr (m ((c : Thread nD τ).loc main_arg3)) := by
  show StableHlo.after hostOps0 (W0 m ρ c) (Proc.devRef .tc main_v15) = _
  after_results
  try rfl

theorem V1_v16 (c : Dev nD) : (V1 m ρ c main_v16 : S128x128.Idx → EReal) = tr (m ((c : Thread nD τ).loc main_arg4)) := by
  show StableHlo.after hostOps0 (W0 m ρ c) (Proc.devRef .tc main_v16) = _
  after_results
  try rfl

theorem V1_v17 (c : Dev nD) : (V1 m ρ c main_v17 : S128x128.Idx → EReal) = tr (m ((c : Thread nD τ).loc main_arg5)) := by
  show StableHlo.after hostOps0 (W0 m ρ c) (Proc.devRef .tc main_v17) = _
  after_results
  try rfl

theorem V1_v18 (c : Dev nD) : (V1 m ρ c main_v18 : S128x128.Idx → EReal) = tr (m ((c : Thread nD τ).loc main_arg6)) := by
  show StableHlo.after hostOps0 (W0 m ρ c) (Proc.devRef .tc main_v18) = _
  after_results
  try rfl

theorem V1_v19 (c : Dev nD) : (V1 m ρ c main_v19 : S1x128.Idx → EReal) = shapeCast S1x128 (m ((c : Thread nD τ).loc main_arg7)) shapeCasts_S128_S1x128 := by
  show StableHlo.after hostOps0 (W0 m ρ c) (Proc.devRef .tc main_v19) = _
  after_results
  try rfl

theorem V1_v20 (c : Dev nD) : (V1 m ρ c main_v20 : S1x128.Idx → EReal) = shapeCast S1x128 (m ((c : Thread nD τ).loc main_arg8)) shapeCasts_S128_S1x128 := by
  show StableHlo.after hostOps0 (W0 m ρ c) (Proc.devRef .tc main_v20) = _
  after_results
  try rfl

theorem V1_v21 (c : Dev nD) : (V1 m ρ c main_v21 : S1x128.Idx → EReal) = shapeCast S1x128 (m ((c : Thread nD τ).loc main_arg9)) shapeCasts_S128_S1x128 := by
  show StableHlo.after hostOps0 (W0 m ρ c) (Proc.devRef .tc main_v21) = _
  after_results
  try rfl

theorem V1_v22 (c : Dev nD) : (V1 m ρ c main_v22 : S1x128.Idx → EReal) = shapeCast S1x128 (m ((c : Thread nD τ).loc main_arg10)) shapeCasts_S128_S1x128 := by
  show StableHlo.after hostOps0 (W0 m ρ c) (Proc.devRef .tc main_v22) = _
  after_results
  try rfl

theorem V1_arg1 (c : Dev nD) : (V1 m ρ c main_arg1 : S40000x128.Idx → EReal) = (m ((c : Thread nD τ).loc main_arg1)) := by
  show StableHlo.after hostOps0 (W0 m ρ c) (Proc.devRef .tc main_arg1) = _
  after_results
  try rfl

theorem V1_arg12 (c : Dev nD) : (V1 m ρ c main_arg12 : S640000.Idx → BitVec 32) = (m ((c : Thread nD τ).loc main_arg12)) := by
  show StableHlo.after hostOps0 (W0 m ρ c) (Proc.devRef .tc main_arg12) = _
  after_results
  try rfl

/-- A [128] vector reshaped to [1, 128] and read back as a vector is itself. -/
theorem rowOf_reshape (g : FVec Ideal S128 .f32) :
    Cert.KernelIdeal.EdgeArrays.rowOf (shapeCast S1x128 g shapeCasts_S128_S1x128) = g := by
  funext j
  show shapeCast S1x128 g shapeCasts_S128_S1x128 (ix2 0 ⟨(j 0).val, (j 0).isLt⟩) = g j
  refine (shapeCast_a_1a_apply (a := 128) g shapeCasts_S128_S1x128 0 ⟨(j 0).val, (j 0).isLt⟩).trans ?_
  exact congrArg g (funext fun a => by match a with | ⟨0, _⟩ => rfl)

/-! ## Region 0's outputs -/

theorem edgeOut_value (c : Dev nD) : Cert.KernelIdeal.EdgeArrays.edgeOut (V1 m ρ) c
    = edgeValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) := by
  show Cert.RowUpdate.resid (V1 m ρ c main_v14) (V1 m ρ c main_arg2) (V1 m ρ c main_v15) (V1 m ρ c main_v16)
      (Cert.KernelIdeal.EdgeArrays.rowOf (V1 m ρ c main_v19)) (Cert.KernelIdeal.EdgeArrays.rowOf (V1 m ρ c main_v20)) = _
  rw [V1_v14 m ρ c, V1_arg2 m ρ c, V1_v15 m ρ c, V1_v16 m ρ c, V1_v19 m ρ c, V1_v20 m ρ c, rowOf_reshape, rowOf_reshape]
  rfl

theorem addFeat_value (c : Dev nD) : Cert.KernelIdeal.EdgeArrays.addFeat (V1 m ρ) c
    = addFeatValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12)) := by
  show Cert.RowUpdate.rows (V1 m ρ c main_v14) (V1 m ρ c main_arg2) (V1 m ρ c main_v15) (V1 m ρ c main_v16)
      (Cert.KernelIdeal.EdgeArrays.rowOf (V1 m ρ c main_v19)) (Cert.KernelIdeal.EdgeArrays.rowOf (V1 m ρ c main_v20)) = _
  rw [V1_v14 m ρ c, V1_arg2 m ρ c, V1_v15 m ρ c, V1_v16 m ρ c, V1_v19 m ρ c, V1_v20 m ρ c, rowOf_reshape, rowOf_reshape]
  rfl

/-- The first result's buffer is written by region 0 only. -/
theorem W4_v23_0 (c : Dev nD) : W4 m ρ c (Proc.devRef .tc main_v23_0) = Cert.KernelIdeal.EdgeArrays.edgeOut (V1 m ρ) c :=
  calc W4 m ρ c (Proc.devRef .tc main_v23_0)
    _ = W3 m ρ c (Proc.devRef .tc main_v23_0) := W4_of_ne m ρ c main_v23_0 (by decide)
    _ = W2 m ρ c (Proc.devRef .tc main_v23_0) := by
          show StableHlo.after hostOps1 (W2 m ρ c) (Proc.devRef .tc main_v23_0) = _
          after_results
          try rfl
    _ = (dat0 (V1 m ρ) c).arrAt 6 cfg0.N := W2_arr m ρ c 6
    _ = _ := Cert.KernelIdeal.EdgeArrays.edgeOut_final (V1 m ρ) c

/-- Region 0's second output, as the second stretch finds it. -/
theorem W2_v23_1 (c : Dev nD) : W2 m ρ c (Proc.devRef .tc main_v23_1) = Cert.KernelIdeal.EdgeArrays.addFeat (V1 m ρ) c :=
  (W2_arr m ρ c 7).trans (Cert.KernelIdeal.EdgeArrays.addFeat_final (V1 m ρ) c)

/-! ## Region 1's entry contents -/

theorem V3_v35 (c : Dev nD) : (V3 m ρ c main_v35 : S40000x128.Idx → EReal)
    = scatterMean (W2 m ρ c (Proc.devRef .tc main_v23_1)) (W2 m ρ c (Proc.devRef .tc main_arg12)) := by
  show StableHlo.after hostOps1 (W2 m ρ c) (Proc.devRef .tc main_v35) = _
  after_results
  try rfl

/-- A buffer neither the second stretch nor region 0 writes is, at region 1's entry, what it was at region 0's. -/
theorem V3_of_V1 (c : Dev nD) (b : Ref sig .tc) (h1 : StableHlo.after hostOps1 (W2 m ρ c) (Proc.devRef .tc b) = W2 m ρ c (Proc.devRef .tc b))
    (h0 : ∀ w, Pipeline.arrRef spec0 w ≠ b) : V3 m ρ c b = V1 m ρ c b :=
  h1.trans (W2_of_ne m ρ c b h0)

theorem V3_arg1 (c : Dev nD) : (V3 m ρ c main_arg1 : S40000x128.Idx → EReal) = (m ((c : Thread nD τ).loc main_arg1)) :=
  (V3_of_V1 m ρ c main_arg1 (by after_results; try rfl) (by decide)).trans (V1_arg1 m ρ c)

theorem V3_v17 (c : Dev nD) : (V3 m ρ c main_v17 : S128x128.Idx → EReal) = tr (m ((c : Thread nD τ).loc main_arg5)) :=
  (V3_of_V1 m ρ c main_v17 (by after_results; try rfl) (by decide)).trans (V1_v17 m ρ c)

theorem V3_v18 (c : Dev nD) : (V3 m ρ c main_v18 : S128x128.Idx → EReal) = tr (m ((c : Thread nD τ).loc main_arg6)) :=
  (V3_of_V1 m ρ c main_v18 (by after_results; try rfl) (by decide)).trans (V1_v18 m ρ c)

theorem V3_v21 (c : Dev nD) : (V3 m ρ c main_v21 : S1x128.Idx → EReal) = shapeCast S1x128 (m ((c : Thread nD τ).loc main_arg9)) shapeCasts_S128_S1x128 :=
  (V3_of_V1 m ρ c main_v21 (by after_results; try rfl) (by decide)).trans (V1_v21 m ρ c)

theorem V3_v22 (c : Dev nD) : (V3 m ρ c main_v22 : S1x128.Idx → EReal) = shapeCast S1x128 (m ((c : Thread nD τ).loc main_arg10)) shapeCasts_S128_S1x128 :=
  (V3_of_V1 m ρ c main_v22 (by after_results; try rfl) (by decide)).trans (V1_v22 m ρ c)

theorem W2_arg12 (c : Dev nD) : (W2 m ρ c (Proc.devRef .tc main_arg12) : S640000.Idx → BitVec 32) = (m ((c : Thread nD τ).loc main_arg12)) :=
  (W2_of_ne m ρ c main_arg12 (by decide)).trans (V1_arg12 m ρ c)

/-! ## Region 1's output -/

theorem nodeOut_value (c : Dev nD) : Cert.KernelIdeal.NodeArrays.nodeOut (V3 m ρ) c
    = nodeValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  show Cert.RowUpdate.resid (V3 m ρ c main_v35) (V3 m ρ c main_arg1) (V3 m ρ c main_v17) (V3 m ρ c main_v18)
      (Cert.KernelIdeal.NodeArrays.rowOf (V3 m ρ c main_v21)) (Cert.KernelIdeal.NodeArrays.rowOf (V3 m ρ c main_v22)) = _
  rw [V3_v35 m ρ c, W2_v23_1 m ρ c, addFeat_value m ρ c, W2_arg12 m ρ c, V3_arg1 m ρ c, V3_v17 m ρ c, V3_v18 m ρ c, V3_v21 m ρ c, V3_v22 m ρ c]
  show Cert.RowUpdate.resid _ _ _ _ (Cert.KernelIdeal.EdgeArrays.rowOf _) (Cert.KernelIdeal.EdgeArrays.rowOf _) = _
  rw [rowOf_reshape, rowOf_reshape]
  rfl

/-- The second result's buffer is region 1's output array. -/
theorem W4_v36 (c : Dev nD) : W4 m ρ c (Proc.devRef .tc main_v36) = Cert.KernelIdeal.NodeArrays.nodeOut (V3 m ρ) c :=
  (W4_arr m ρ c 6).trans (Cert.KernelIdeal.NodeArrays.nodeOut_final (V3 m ρ) c)

/-! ## The run -/

/-- Every weakly fair execution of the idealized kernel terminates with its two results at `edgeValue` and `nodeValue`
    of the argument arrays, the arguments unchanged. -/
theorem run_value : θ_run defs (onTc (τ := τ) (main (F := Ideal))) ⟨m, fun _ => 0, ρ⟩ (fun r => ∀ c : Dev nD,
      r.2.mem ((c.tc : Thread nD τ).loc main_v23_0)
        = edgeValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) (m ((c : Thread nD τ).loc main_arg8)) (m ((c : Thread nD τ).loc main_arg11)) (m ((c : Thread nD τ).loc main_arg12))
      ∧ r.2.mem ((c.tc : Thread nD τ).loc main_v36)
        = nodeValue (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c =>
      ⟨(h c).1.trans ((W4_v23_0 m ρ c).trans (edgeOut_value m ρ c)),
       (h c).2.1.trans ((W4_v36 m ρ c).trans (nodeOut_value m ρ c)),
       (h c).2.2⟩)
    (Cert.KernelIdeal.KernelRun.run_named m ρ)

end Cert.KernelIdeal.KernelValue

end
-- ==== Proof.RefValue.lean ====
/-
  The reference's two stages, read at an index, are the row update of the specification.

  Edge stage: with a the row p of the gathered-and-added node rows, e the row p of the edge features, A and E the
  two transposed weight matrices, the reference's linear stage at (p, q) is lin a e A E q; its SiLU stage is
  silu of that; the two row sums divided by the word of 128.0 are the two means; and the scaled, shifted, normalised
  row is row a e A E γ β q. The node stage is the same computation on the scatter-mean rows and the node features.
  Each step below reads one group of host operations at coordinates (p, q) and names the result by the
  specification's function.
-/
import proofs.«180846_j83734682402872_1_alg».proof.Proof.Gen.ReferenceIdeal.Read
import proofs.«180846_j83734682402872_1_alg».proof.Proof.RowUpdate
import Idealize.ShloMosaic.PureOps.Ideal
import Idealize.ShloMosaic.PureOps.Ideal.Laws
import Idealize.ShloMosaic.PureOps.IdealRules
import Idealize.ShloMosaic.Lib.ValueIdx

noncomputable section

namespace Cert.ReferenceIdeal.RefValue

open Cert.ReferenceIdeal Cert.ReferenceIdeal.Gen Idealize.ShloMosaic Idealize.ShloMosaic.TcCoe Idealize.SL.Sem
  Idealize.ShloMosaic.StableHlo Idealize.ShloMosaic.ValueIdx Cert.RowUpdate

/-- The float word 0x3F800000 is the number one. -/
theorem one_word : Ideal.ofBits .f32 0x3F800000#32 = 1 := IdealRules.sign_bit.ideal_onePat .f32

/-- The host operations of SiLU at one entry: negate, exponential, one plus, one over, multiply. -/
theorem silu_ops (L : Ideal .f32) :
    FloatOps.mulf L (FloatOps.hostDivf (FloatOps.ofBits (F := Ideal) .f32 0x3F800000#32)
      (FloatOps.addf (FloatOps.ofBits (F := Ideal) .f32 0x3F800000#32) (FloatOps.hostUnary .exp (FloatOps.hostNegf L))))
      = silu L := by
  simp only [Ideal.ofBits_def, one_word]
  rfl

/-! ## Edge stage: rows of length 128 over 640000 edges -/

section Edge

variable (x0 x1 : (⟨S40000x128, .f32⟩ : BufTy).Contents (Elt Ideal)) (x2 : (⟨S640000x128, .f32⟩ : BufTy).Contents (Elt Ideal))
  (x3 x4 : (⟨S128x128, .f32⟩ : BufTy).Contents (Elt Ideal)) (x7 x8 : (⟨S128, .f32⟩ : BufTy).Contents (Elt Ideal))
  (x11 x12 : (⟨S640000, .i32⟩ : BufTy).Contents (Elt Ideal))

/-! Index equations: each composed index function of the generated stages, at coordinates, is a coordinate constructor. -/

theorem e_lidx16 (p : Fin 640000) (q k : Fin 128) : Read.lidx_main_v16 (ix2 p q) k = ix2 p k :=
  funext fun a => Fin.ext (by match a with | ⟨0, _⟩ => rfl | ⟨1, _⟩ => rfl)
theorem e_ridx16 (p : Fin 640000) (q k : Fin 128) : Read.ridx_main_v16 (ix2 p q) k = ix2 k q :=
  funext fun a => Fin.ext (by match a with | ⟨0, _⟩ => rfl | ⟨1, _⟩ => rfl)
theorem e_lidx18 (p : Fin 640000) (q k : Fin 128) : Read.lidx_main_v18 (ix2 p q) k = ix2 p k :=
  funext fun a => Fin.ext (by match a with | ⟨0, _⟩ => rfl | ⟨1, _⟩ => rfl)
theorem e_ridx18 (p : Fin 640000) (q k : Fin 128) : Read.ridx_main_v18 (ix2 p q) k = ix2 k q :=
  funext fun a => Fin.ext (by match a with | ⟨0, _⟩ => rfl | ⟨1, _⟩ => rfl)
theorem e_idx21 (p : Fin 640000) (k : Fin 128) : Read.idx_main_v21 (ix1 p) k = ix2 p k :=
  funext fun a => Fin.ext (by match a with | ⟨0, _⟩ => rfl | ⟨1, _⟩ => rfl)
theorem e_idx28 (p : Fin 640000) (k : Fin 128) : Read.idx_main_v28 (ix1 p) k = ix2 p k :=
  funext fun a => Fin.ext (by match a with | ⟨0, _⟩ => rfl | ⟨1, _⟩ => rfl)
theorem e_idx22 (p : Fin 640000) (z : Fin 1) : Read.idx_main_v22 (ix2 p z) = ix1 p :=
  funext fun a => Fin.ext (by match a with | ⟨0, _⟩ => rfl)
theorem e_idx29 (p : Fin 640000) (z : Fin 1) : Read.idx_main_v29 (ix2 p z) = ix1 p :=
  funext fun a => Fin.ext (by match a with | ⟨0, _⟩ => rfl)
theorem e_idx25 (p : Fin 640000) (q : Fin 128) : Read.idx_main_v25 (ix2 p q) = ix2 p (0 : Fin 1) :=
  funext fun a => Fin.ext (by match a with | ⟨0, _⟩ => rfl | ⟨1, _⟩ => rfl)
theorem e_idx32 (p : Fin 640000) (q : Fin 128) : Read.idx_main_v32 (ix2 p q) = ix2 p (0 : Fin 1) :=
  funext fun a => Fin.ext (by match a with | ⟨0, _⟩ => rfl | ⟨1, _⟩ => rfl)
theorem e_idx37 (p : Fin 640000) (q : Fin 128) : Read.idx_main_v37 (ix2 p q) = ix2 p (0 : Fin 1) :=
  funext fun a => Fin.ext (by match a with | ⟨0, _⟩ => rfl | ⟨1, _⟩ => rfl)
theorem e_idx40 (p : Fin 640000) (q : Fin 128) : Read.idx_main_v40 (ix2 p q) = ix2 (0 : Fin 1) q :=
  funext fun a => Fin.ext (by match a with | ⟨0, _⟩ => rfl | ⟨1, _⟩ => rfl)
theorem e_idx43 (p : Fin 640000) (q : Fin 128) : Read.idx_main_v43 (ix2 p q) = ix2 (0 : Fin 1) q :=
  funext fun a => Fin.ext (by match a with | ⟨0, _⟩ => rfl | ⟨1, _⟩ => rfl)
theorem e_idx39 (z : Fin 1) (q : Fin 128) : Read.idx_main_v39 (ix2 z q) = ix1 q :=
  funext fun a => Fin.ext (by match a with | ⟨0, _⟩ => rfl)
theorem e_idx42 (z : Fin 1) (q : Fin 128) : Read.idx_main_v42 (ix2 z q) = ix1 q :=
  funext fun a => Fin.ext (by match a with | ⟨0, _⟩ => rfl)

/-- The sum of the two products of row p with the transposed matrices, at column q. -/
theorem e_lin (p : Fin 640000) (q : Fin 128) :
    Read.val_main_v19 (F := Ideal) x0 x1 x2 x3 x4 x11 x12 (ix2 p q)
      = lin (fun d => Read.val_main_v14 (F := Ideal) x0 x1 x11 x12 (ix2 p d)) (fun d => x2 (ix2 p d))
          (fun d k => Read.val_main_v15 (F := Ideal) x3 (ix2 d k)) (fun d k => Read.val_main_v17 (F := Ideal) x4 (ix2 d k)) q := by
  rw [Read.val_main_v19_apply, Read.val_main_v16_apply, Read.val_main_v18_apply]
  simp only [e_lidx16, e_ridx16, e_lidx18, e_ridx18]
  rfl

/-- SiLU of the linear stage: x * (1 / (1 + e^(-x))) with both ones the word of 1.0. -/
theorem e_silu (p : Fin 640000) (q : Fin 128) :
    Read.val_main_v20 (F := Ideal) x0 x1 x2 x3 x4 x11 x12 (ix2 p q)
      = silu (lin (fun d => Read.val_main_v14 (F := Ideal) x0 x1 x11 x12 (ix2 p d)) (fun d => x2 (ix2 p d))
          (fun d k => Read.val_main_v15 (F := Ideal) x3 (ix2 d k)) (fun d k => Read.val_main_v17 (F := Ideal) x4 (ix2 d k)) q) := by
  rw [Read.val_main_v20_apply, Read.val_main_call0_v5_apply, Read.val_main_call0_v4_apply, Read.val_main_call0_cst_0_apply,
    Read.val_main_call0_v3_apply, Read.val_main_call0_v2_apply, Read.val_main_call0_cst_apply, Read.val_main_call0_v1_apply,
    Read.val_main_call0_v0_apply, e_lin]
  exact silu_ops _

/-- The sum of the SiLU row: the initial word is zero. -/
theorem e_sum1 (p : Fin 640000) :
    Read.val_main_v21 (F := Ideal) x0 x1 x2 x3 x4 x11 x12 (ix1 p)
      = ∑ k : Fin 128, silu (lin (fun d => Read.val_main_v14 (F := Ideal) x0 x1 x11 x12 (ix2 p d)) (fun d => x2 (ix2 p d))
          (fun d k => Read.val_main_v15 (F := Ideal) x3 (ix2 d k)) (fun d k => Read.val_main_v17 (F := Ideal) x4 (ix2 d k)) k) := by
  rw [Read.val_main_v21_apply, Read.val_main_cst_apply]
  simp only [e_idx21, e_silu, Ideal.ofBits_def, Ideal.ofBits_zero_f32, zero_add]

/-- The mean of the SiLU row. -/
theorem e_mean1 (p : Fin 640000) (z : Fin 1) :
    Read.val_main_v24 (F := Ideal) x0 x1 x2 x3 x4 x11 x12 (ix2 p z)
      = mean (fun k => silu (lin (fun d => Read.val_main_v14 (F := Ideal) x0 x1 x11 x12 (ix2 p d)) (fun d => x2 (ix2 p d))
          (fun d k => Read.val_main_v15 (F := Ideal) x3 (ix2 d k)) (fun d k => Read.val_main_v17 (F := Ideal) x4 (ix2 d k)) k)) := by
  rw [Read.val_main_v24_apply, Read.val_main_v22_apply, Read.val_main_v23_apply, Read.val_main_cst_3_apply, e_idx22, e_sum1]
  rfl

/-- The SiLU row of edge p, as a function of the column. -/
abbrev eS (p : Fin 640000) : Fin 128 → EReal := fun k =>
  silu (lin (fun d => Read.val_main_v14 (F := Ideal) x0 x1 x11 x12 (ix2 p d)) (fun d => x2 (ix2 p d))
    (fun d k => Read.val_main_v15 (F := Ideal) x3 (ix2 d k)) (fun d k => Read.val_main_v17 (F := Ideal) x4 (ix2 d k)) k)

/-- The centred row, first copy (the one that is squared). -/
theorem e_cen1 (p : Fin 640000) (q : Fin 128) :
    Read.val_main_v26 (F := Ideal) x0 x1 x2 x3 x4 x11 x12 (ix2 p q)
      = eS x0 x1 x2 x3 x4 x11 x12 p q - mean (eS x0 x1 x2 x3 x4 x11 x12 p) := by
  rw [Read.val_main_v26_apply, Read.val_main_v25_apply, e_idx25, e_mean1, e_silu]
  rfl

/-- The centred row, second copy (the one that is normalised). -/
theorem e_cen2 (p : Fin 640000) (q : Fin 128) :
    Read.val_main_v33 (F := Ideal) x0 x1 x2 x3 x4 x11 x12 (ix2 p q)
      = eS x0 x1 x2 x3 x4 x11 x12 p q - mean (eS x0 x1 x2 x3 x4 x11 x12 p) := by
  rw [Read.val_main_v33_apply, Read.val_main_v32_apply, e_idx32, e_mean1, e_silu]
  rfl

/-- The squared deviation. -/
theorem e_sq (p : Fin 640000) (q : Fin 128) :
    Read.val_main_v27 (F := Ideal) x0 x1 x2 x3 x4 x11 x12 (ix2 p q)
      = (eS x0 x1 x2 x3 x4 x11 x12 p q - mean (eS x0 x1 x2 x3 x4 x11 x12 p))
        * (eS x0 x1 x2 x3 x4 x11 x12 p q - mean (eS x0 x1 x2 x3 x4 x11 x12 p)) := by
  rw [Read.val_main_v27_apply, e_cen1]
  rfl

/-- The sum of the squared deviations: the initial word is zero. -/
theorem e_sum2 (p : Fin 640000) :
    Read.val_main_v28 (F := Ideal) x0 x1 x2 x3 x4 x11 x12 (ix1 p)
      = ∑ k : Fin 128, (eS x0 x1 x2 x3 x4 x11 x12 p k - mean (eS x0 x1 x2 x3 x4 x11 x12 p))
        * (eS x0 x1 x2 x3 x4 x11 x12 p k - mean (eS x0 x1 x2 x3 x4 x11 x12 p)) := by
  rw [Read.val_main_v28_apply, Read.val_main_cst_4_apply]
  simp only [e_idx28, e_sq, Ideal.ofBits_def, Ideal.ofBits_zero_f32, zero_add]

/-- The variance: the mean of the squared deviations. -/
theorem e_mean2 (p : Fin 640000) (z : Fin 1) :
    Read.val_main_v31 (F := Ideal) x0 x1 x2 x3 x4 x11 x12 (ix2 p z)
      = mean (fun k => (eS x0 x1 x2 x3 x4 x11 x12 p k - mean (eS x0 x1 x2 x3 x4 x11 x12 p))
        * (eS x0 x1 x2 x3 x4 x11 x12 p k - mean (eS x0 x1 x2 x3 x4 x11 x12 p))) := by
  rw [Read.val_main_v31_apply, Read.val_main_v29_apply, Read.val_main_v30_apply, Read.val_main_cst_5_apply, e_idx29, e_sum2]
  rfl

/-- The reciprocal square root of the variance plus the word of ε. -/
theorem e_rs (p : Fin 640000) (z : Fin 1) :
    Read.val_main_v36 (F := Ideal) x0 x1 x2 x3 x4 x11 x12 (ix2 p z)
      = Ideal.rsqrt (mean (fun k => (eS x0 x1 x2 x3 x4 x11 x12 p k - mean (eS x0 x1 x2 x3 x4 x11 x12 p))
        * (eS x0 x1 x2 x3 x4 x11 x12 p k - mean (eS x0 x1 x2 x3 x4 x11 x12 p))) + eps) := by
  rw [Read.val_main_v36_apply, Read.val_main_v35_apply, Read.val_main_v34_apply, Read.val_main_cst_6_apply, e_mean2]
  rfl

/-- The normalised row, scaled by the broadcast γ and shifted by the broadcast β: one row of the update. -/
theorem e_row (p : Fin 640000) (q : Fin 128) :
    Read.val_main_v44 (F := Ideal) x0 x1 x2 x3 x4 x7 x8 x11 x12 (ix2 p q)
      = row (fun d => Read.val_main_v14 (F := Ideal) x0 x1 x11 x12 (ix2 p d)) (fun d => x2 (ix2 p d))
          (fun d k => Read.val_main_v15 (F := Ideal) x3 (ix2 d k)) (fun d k => Read.val_main_v17 (F := Ideal) x4 (ix2 d k))
          (fun j => x7 (ix1 j)) (fun j => x8 (ix1 j)) q := by
  rw [Read.val_main_v44_apply, Read.val_main_v43_apply, Read.val_main_v42_apply, Read.val_main_v41_apply,
    Read.val_main_v40_apply, Read.val_main_v39_apply, Read.val_main_v38_apply, Read.val_main_v37_apply,
    e_cen2, e_idx37, e_rs, e_idx43, e_idx42, e_idx40, e_idx39]
  rfl

end Edge

/-! ## Node stage: rows of length 128 over 40000 nodes -/

section Node

variable (x0 x1 : (⟨S40000x128, .f32⟩ : BufTy).Contents (Elt Ideal)) (x2 : (⟨S640000x128, .f32⟩ : BufTy).Contents (Elt Ideal))
  (x3 x4 x5 x6 : (⟨S128x128, .f32⟩ : BufTy).Contents (Elt Ideal)) (x7 x8 x9 x10 : (⟨S128, .f32⟩ : BufTy).Contents (Elt Ideal))
  (x11 x12 : (⟨S640000, .i32⟩ : BufTy).Contents (Elt Ideal))

/-! Index equations of the node stage's composed index functions. -/

theorem n_lidx59 (p : Fin 40000) (q k : Fin 128) : Read.lidx_main_v59 (ix2 p q) k = ix2 p k :=
  funext fun a => Fin.ext (by match a with | ⟨0, _⟩ => rfl | ⟨1, _⟩ => rfl)
theorem n_ridx59 (p : Fin 40000) (q k : Fin 128) : Read.ridx_main_v59 (ix2 p q) k = ix2 k q :=
  funext fun a => Fin.ext (by match a with | ⟨0, _⟩ => rfl | ⟨1, _⟩ => rfl)
theorem n_lidx61 (p : Fin 40000) (q k : Fin 128) : Read.lidx_main_v61 (ix2 p q) k = ix2 p k :=
  funext fun a => Fin.ext (by match a with | ⟨0, _⟩ => rfl | ⟨1, _⟩ => rfl)
theorem n_ridx61 (p : Fin 40000) (q k : Fin 128) : Read.ridx_main_v61 (ix2 p q) k = ix2 k q :=
  funext fun a => Fin.ext (by match a with | ⟨0, _⟩ => rfl | ⟨1, _⟩ => rfl)
theorem n_idx64 (p : Fin 40000) (k : Fin 128) : Read.idx_main_v64 (ix1 p) k = ix2 p k :=
  funext fun a => Fin.ext (by match a with | ⟨0, _⟩ => rfl | ⟨1, _⟩ => rfl)
theorem n_idx71 (p : Fin 40000) (k : Fin 128) : Read.idx_main_v71 (ix1 p) k = ix2 p k :=
  funext fun a => Fin.ext (by match a with | ⟨0, _⟩ => rfl | ⟨1, _⟩ => rfl)
theorem n_idx65 (p : Fin 40000) (z : Fin 1) : Read.idx_main_v65 (ix2 p z) = ix1 p :=
  funext fun a => Fin.ext (by match a with | ⟨0, _⟩ => rfl)
theorem n_idx72 (p : Fin 40000) (z : Fin 1) : Read.idx_main_v72 (ix2 p z) = ix1 p :=
  funext fun a => Fin.ext (by match a with | ⟨0, _⟩ => rfl)
theorem n_idx68 (p : Fin 40000) (q : Fin 128) : Read.idx_main_v68 (ix2 p q) = ix2 p (0 : Fin 1) :=
  funext fun a => Fin.ext (by match a with | ⟨0, _⟩ => rfl | ⟨1, _⟩ => rfl)
theorem n_idx75 (p : Fin 40000) (q : Fin 128) : Read.idx_main_v75 (ix2 p q) = ix2 p (0 : Fin 1) :=
  funext fun a => Fin.ext (by match a with | ⟨0, _⟩ => rfl | ⟨1, _⟩ => rfl)
theorem n_idx80 (p : Fin 40000) (q : Fin 128) : Read.idx_main_v80 (ix2 p q) = ix2 p (0 : Fin 1) :=
  funext fun a => Fin.ext (by match a with | ⟨0, _⟩ => rfl | ⟨1, _⟩ => rfl)
theorem n_idx83 (p : Fin 40000) (q : Fin 128) : Read.idx_main_v83 (ix2 p q) = ix2 (0 : Fin 1) q :=
  funext fun a => Fin.ext (by match a with | ⟨0, _⟩ => rfl | ⟨1, _⟩ => rfl)
theorem n_idx86 (p : Fin 40000) (q : Fin 128) : Read.idx_main_v86 (ix2 p q) = ix2 (0 : Fin 1) q :=
  funext fun a => Fin.ext (by match a with | ⟨0, _⟩ => rfl | ⟨1, _⟩ => rfl)
theorem n_idx82 (z : Fin 1) (q : Fin 128) : Read.idx_main_v82 (ix2 z q) = ix1 q :=
  funext fun a => Fin.ext (by match a with | ⟨0, _⟩ => rfl)
theorem n_idx85 (z : Fin 1) (q : Fin 128) : Read.idx_main_v85 (ix2 z q) = ix1 q :=
  funext fun a => Fin.ext (by match a with | ⟨0, _⟩ => rfl)

/-- The sum of the two products of row p with the transposed matrices, at column q. -/
theorem n_lin (p : Fin 40000) (q : Fin 128) :
    Read.val_main_v62 (F := Ideal) x0 x1 x2 x3 x4 x5 x6 x7 x8 x11 x12 (ix2 p q)
      = lin (fun d => Read.val_main_v57 (F := Ideal) x0 x1 x2 x3 x4 x7 x8 x11 x12 (ix2 p d)) (fun d => x1 (ix2 p d))
          (fun d k => Read.val_main_v58 (F := Ideal) x5 (ix2 d k)) (fun d k => Read.val_main_v60 (F := Ideal) x6 (ix2 d k)) q := by
  rw [Read.val_main_v62_apply, Read.val_main_v59_apply, Read.val_main_v61_apply]
  simp only [n_lidx59, n_ridx59, n_lidx61, n_ridx61]
  rfl

/-- SiLU of the linear stage: x * (1 / (1 + e^(-x))) with both ones the word of 1.0. -/
theorem n_silu (p : Fin 40000) (q : Fin 128) :
    Read.val_main_v63 (F := Ideal) x0 x1 x2 x3 x4 x5 x6 x7 x8 x11 x12 (ix2 p q)
      = silu (lin (fun d => Read.val_main_v57 (F := Ideal) x0 x1 x2 x3 x4 x7 x8 x11 x12 (ix2 p d)) (fun d => x1 (ix2 p d))
          (fun d k => Read.val_main_v58 (F := Ideal) x5 (ix2 d k)) (fun d k => Read.val_main_v60 (F := Ideal) x6 (ix2 d k)) q) := by
  rw [Read.val_main_v63_apply, Read.val_main_call1_v5_apply, Read.val_main_call1_v4_apply, Read.val_main_call1_cst_0_apply,
    Read.val_main_call1_v3_apply, Read.val_main_call1_v2_apply, Read.val_main_call1_cst_apply, Read.val_main_call1_v1_apply,
    Read.val_main_call1_v0_apply, n_lin]
  exact silu_ops _

/-- The SiLU row of node p, as a function of the column. -/
abbrev nS (p : Fin 40000) : Fin 128 → EReal := fun k =>
  silu (lin (fun d => Read.val_main_v57 (F := Ideal) x0 x1 x2 x3 x4 x7 x8 x11 x12 (ix2 p d)) (fun d => x1 (ix2 p d))
    (fun d k => Read.val_main_v58 (F := Ideal) x5 (ix2 d k)) (fun d k => Read.val_main_v60 (F := Ideal) x6 (ix2 d k)) k)

/-- The sum of the SiLU row: the initial word is zero. -/
theorem n_sum1 (p : Fin 40000) :
    Read.val_main_v64 (F := Ideal) x0 x1 x2 x3 x4 x5 x6 x7 x8 x11 x12 (ix1 p)
      = ∑ k : Fin 128, nS x0 x1 x2 x3 x4 x5 x6 x7 x8 x11 x12 p k := by
  rw [Read.val_main_v64_apply, Read.val_main_cst_11_apply]
  simp only [n_idx64, n_silu, Ideal.ofBits_def, Ideal.ofBits_zero_f32, zero_add]

/-- The mean of the SiLU row. -/
theorem n_mean1 (p : Fin 40000) (z : Fin 1) :
    Read.val_main_v67 (F := Ideal) x0 x1 x2 x3 x4 x5 x6 x7 x8 x11 x12 (ix2 p z)
      = mean (nS x0 x1 x2 x3 x4 x5 x6 x7 x8 x11 x12 p) := by
  rw [Read.val_main_v67_apply, Read.val_main_v65_apply, Read.val_main_v66_apply, Read.val_main_cst_12_apply, n_idx65, n_sum1]
  rfl

/-- The centred row, first copy (the one that is squared). -/
theorem n_cen1 (p : Fin 40000) (q : Fin 128) :
    Read.val_main_v69 (F := Ideal) x0 x1 x2 x3 x4 x5 x6 x7 x8 x11 x12 (ix2 p q)
      = nS x0 x1 x2 x3 x4 x5 x6 x7 x8 x11 x12 p q - mean (nS x0 x1 x2 x3 x4 x5 x6 x7 x8 x11 x12 p) := by
  rw [Read.val_main_v69_apply, Read.val_main_v68_apply, n_idx68, n_mean1, n_silu]
  rfl

/-- The centred row, second copy (the one that is normalised). -/
theorem n_cen2 (p : Fin 40000) (q : Fin 128) :
    Read.val_main_v76 (F := Ideal) x0 x1 x2 x3 x4 x5 x6 x7 x8 x11 x12 (ix2 p q)
      = nS x0 x1 x2 x3 x4 x5 x6 x7 x8 x11 x12 p q - mean (nS x0 x1 x2 x3 x4 x5 x6 x7 x8 x11 x12 p) := by
  rw [Read.val_main_v76_apply, Read.val_main_v75_apply, n_idx75, n_mean1, n_silu]
  rfl

/-- The squared deviation. -/
theorem n_sq (p : Fin 40000) (q : Fin 128) :
    Read.val_main_v70 (F := Ideal) x0 x1 x2 x3 x4 x5 x6 x7 x8 x11 x12 (ix2 p q)
      = (nS x0 x1 x2 x3 x4 x5 x6 x7 x8 x11 x12 p q - mean (nS x0 x1 x2 x3 x4 x5 x6 x7 x8 x11 x12 p))
        * (nS x0 x1 x2 x3 x4 x5 x6 x7 x8 x11 x12 p q - mean (nS x0 x1 x2 x3 x4 x5 x6 x7 x8 x11 x12 p)) := by
  rw [Read.val_main_v70_apply, n_cen1]
  rfl

/-- The sum of the squared deviations: the initial word is zero. -/
theorem n_sum2 (p : Fin 40000) :
    Read.val_main_v71 (F := Ideal) x0 x1 x2 x3 x4 x5 x6 x7 x8 x11 x12 (ix1 p)
      = ∑ k : Fin 128, (nS x0 x1 x2 x3 x4 x5 x6 x7 x8 x11 x12 p k - mean (nS x0 x1 x2 x3 x4 x5 x6 x7 x8 x11 x12 p))
        * (nS x0 x1 x2 x3 x4 x5 x6 x7 x8 x11 x12 p k - mean (nS x0 x1 x2 x3 x4 x5 x6 x7 x8 x11 x12 p)) := by
  rw [Read.val_main_v71_apply, Read.val_main_cst_13_apply]
  simp only [n_idx71, n_sq, Ideal.ofBits_def, Ideal.ofBits_zero_f32, zero_add]

/-- The variance: the mean of the squared deviations. -/
theorem n_mean2 (p : Fin 40000) (z : Fin 1) :
    Read.val_main_v74 (F := Ideal) x0 x1 x2 x3 x4 x5 x6 x7 x8 x11 x12 (ix2 p z)
      = mean (fun k => (nS x0 x1 x2 x3 x4 x5 x6 x7 x8 x11 x12 p k - mean (nS x0 x1 x2 x3 x4 x5 x6 x7 x8 x11 x12 p))
        * (nS x0 x1 x2 x3 x4 x5 x6 x7 x8 x11 x12 p k - mean (nS x0 x1 x2 x3 x4 x5 x6 x7 x8 x11 x12 p))) := by
  rw [Read.val_main_v74_apply, Read.val_main_v72_apply, Read.val_main_v73_apply, Read.val_main_cst_14_apply, n_idx72, n_sum2]
  rfl

/-- The reciprocal square root of the variance plus the word of ε. -/
theorem n_rs (p : Fin 40000) (z : Fin 1) :
    Read.val_main_v79 (F := Ideal) x0 x1 x2 x3 x4 x5 x6 x7 x8 x11 x12 (ix2 p z)
      = Ideal.rsqrt (mean (fun k => (nS x0 x1 x2 x3 x4 x5 x6 x7 x8 x11 x12 p k - mean (nS x0 x1 x2 x3 x4 x5 x6 x7 x8 x11 x12 p))
        * (nS x0 x1 x2 x3 x4 x5 x6 x7 x8 x11 x12 p k - mean (nS x0 x1 x2 x3 x4 x5 x6 x7 x8 x11 x12 p))) + eps) := by
  rw [Read.val_main_v79_apply, Read.val_main_v78_apply, Read.val_main_v77_apply, Read.val_main_cst_15_apply, n_mean2]
  rfl

/-- The normalised row, scaled by the broadcast γ and shifted by the broadcast β: one row of the update. -/
theorem n_row (p : Fin 40000) (q : Fin 128) :
    Read.val_main_v87 (F := Ideal) x0 x1 x2 x3 x4 x5 x6 x7 x8 x9 x10 x11 x12 (ix2 p q)
      = row (fun d => Read.val_main_v57 (F := Ideal) x0 x1 x2 x3 x4 x7 x8 x11 x12 (ix2 p d)) (fun d => x1 (ix2 p d))
          (fun d k => Read.val_main_v58 (F := Ideal) x5 (ix2 d k)) (fun d k => Read.val_main_v60 (F := Ideal) x6 (ix2 d k))
          (fun j => x9 (ix1 j)) (fun j => x10 (ix1 j)) q := by
  rw [Read.val_main_v87_apply, Read.val_main_v86_apply, Read.val_main_v85_apply, Read.val_main_v84_apply,
    Read.val_main_v83_apply, Read.val_main_v82_apply, Read.val_main_v81_apply, Read.val_main_v80_apply,
    n_cen2, n_idx80, n_rs, n_idx86, n_idx85, n_idx83, n_idx82]
  rfl

end Node

/-- The reference's edge update, as a whole array, is the row update of the gathered rows and the edge features. -/
theorem addFeat_eq (x0 x1 : (⟨S40000x128, .f32⟩ : BufTy).Contents (Elt Ideal)) (x2 : (⟨S640000x128, .f32⟩ : BufTy).Contents (Elt Ideal))
    (x3 x4 : (⟨S128x128, .f32⟩ : BufTy).Contents (Elt Ideal)) (x7 x8 : (⟨S128, .f32⟩ : BufTy).Contents (Elt Ideal))
    (x11 x12 : (⟨S640000, .i32⟩ : BufTy).Contents (Elt Ideal)) :
    Read.val_main_v44 (F := Ideal) x0 x1 x2 x3 x4 x7 x8 x11 x12
      = Cert.RowUpdate.rows (Read.val_main_v14 (F := Ideal) x0 x1 x11 x12) x2 (Read.val_main_v15 (F := Ideal) x3)
          (Read.val_main_v17 (F := Ideal) x4) x7 x8 := by
  funext i
  obtain ⟨p, q, rfl⟩ : ∃ (p : Fin 640000) (q : Fin 128), i = ix2 p q := ⟨i 0, i 1, eq_ix2 i⟩
  rw [rows_ix2]
  exact e_row x0 x1 x2 x3 x4 x7 x8 x11 x12 p q

/-- The reference's edge output: the edge features plus their update. -/
theorem edgeOut_eq (x0 x1 : (⟨S40000x128, .f32⟩ : BufTy).Contents (Elt Ideal)) (x2 : (⟨S640000x128, .f32⟩ : BufTy).Contents (Elt Ideal))
    (x3 x4 : (⟨S128x128, .f32⟩ : BufTy).Contents (Elt Ideal)) (x7 x8 : (⟨S128, .f32⟩ : BufTy).Contents (Elt Ideal))
    (x11 x12 : (⟨S640000, .i32⟩ : BufTy).Contents (Elt Ideal)) :
    Read.val_main_v45 (F := Ideal) x0 x1 x2 x3 x4 x7 x8 x11 x12
      = Cert.RowUpdate.resid (Read.val_main_v14 (F := Ideal) x0 x1 x11 x12) x2 (Read.val_main_v15 (F := Ideal) x3)
          (Read.val_main_v17 (F := Ideal) x4) x7 x8 := by
  funext i
  rw [Read.val_main_v45_apply, addFeat_eq]
  rfl

/-- The reference's node output: the node features plus the row update of the scatter-mean rows and the node features. -/
theorem nodeOut_eq (x0 x1 : (⟨S40000x128, .f32⟩ : BufTy).Contents (Elt Ideal)) (x2 : (⟨S640000x128, .f32⟩ : BufTy).Contents (Elt Ideal))
    (x3 x4 x5 x6 : (⟨S128x128, .f32⟩ : BufTy).Contents (Elt Ideal)) (x7 x8 x9 x10 : (⟨S128, .f32⟩ : BufTy).Contents (Elt Ideal))
    (x11 x12 : (⟨S640000, .i32⟩ : BufTy).Contents (Elt Ideal)) :
    Read.val_main_v88 (F := Ideal) x0 x1 x2 x3 x4 x5 x6 x7 x8 x9 x10 x11 x12
      = Cert.RowUpdate.resid (Read.val_main_v57 (F := Ideal) x0 x1 x2 x3 x4 x7 x8 x11 x12) x1 (Read.val_main_v58 (F := Ideal) x5)
          (Read.val_main_v60 (F := Ideal) x6) x9 x10 := by
  funext i
  obtain ⟨p, q, rfl⟩ : ∃ (p : Fin 40000) (q : Fin 128), i = ix2 p q := ⟨i 0, i 1, eq_ix2 i⟩
  rw [Read.val_main_v88_apply, n_row]
  rfl

end Cert.ReferenceIdeal.RefValue

end
-- ==== Proof.Bridge.lean ====
/-
  The reference's host stages and the kernel side's named host chains are the same arrays.

  Both programs apply, outside the two kernel regions, the same host operations to the same arguments: the sum of the
  two gathered node rows of every edge, the transposes of the four weight matrices, and the mean of the edge rows
  landing on each target node. The reference spells them stage by stage and the kernel side as one named function each;
  each program cites its own copies of the shapes, of the gather's and the scatters' dimension numbers and of the side
  conditions, and the copies agree field by field. So each equation is between two spellings of one term, and the
  gather and the scatter themselves are never opened.
-/
import proofs.«180846_j83734682402872_1_alg».proof.Proof.Gen.ReferenceIdeal.Read
import proofs.«180846_j83734682402872_1_alg».proof.Proof.KernelValue
import proofs.«180846_j83734682402872_1_alg».proof.Proof.RowUpdate

noncomputable section

namespace Cert.Bridge

open Idealize.ShloMosaic Idealize.ShloMosaic.TcCoe Idealize.SL.Sem Idealize.ShloMosaic.StableHlo

/-! ## The dimension records of the two programs

Each program states its own copy of a gather's or scatter's dimension numbers; the two copies have the same fields. -/

theorem gather_eq :
    Cert.ReferenceIdeal.gather_S40000x128_S640000x1_S640000x128_1_0_n_n_0_1_1128
      = Cert.KernelIdeal.gather_S40000x128_S640000x1_S640000x128_1_0_n_n_0_1_1128 := rfl

theorem scatter_rows_eq :
    Cert.ReferenceIdeal.scatter_S40000x128_S640000x1_S640000x128_1_0_0_1
      = Cert.KernelIdeal.scatter_S40000x128_S640000x1_S640000x128_1_0_0_1 := rfl

theorem scatter_count_eq :
    Cert.ReferenceIdeal.scatter_S40000_S640000x1_S640000_n_0_0_1
      = Cert.KernelIdeal.scatter_S40000_S640000x1_S640000_n_0_0_1 := rfl

/-! ## The host chains -/

/-- The reference's sum of the two gathered node rows of every edge is the kernel side's. -/
theorem gatherAdd_eq (x0 x1 : (⟨Cert.ReferenceIdeal.S40000x128, .f32⟩ : BufTy).Contents (Elt Ideal))
    (x11 x12 : (⟨Cert.ReferenceIdeal.S640000, .i32⟩ : BufTy).Contents (Elt Ideal)) :
    Cert.ReferenceIdeal.Read.val_main_v14 (F := Ideal) x0 x1 x11 x12 = Cert.KernelIdeal.KernelValue.gatherAdd x0 x1 x11 x12 := by
  unfold Cert.ReferenceIdeal.Read.val_main_v14 Cert.ReferenceIdeal.Read.val_main_v6 Cert.ReferenceIdeal.Read.val_main_v13
    Cert.ReferenceIdeal.Read.val_main_v5 Cert.ReferenceIdeal.Read.val_main_v12 Cert.ReferenceIdeal.Read.val_main_v4
    Cert.ReferenceIdeal.Read.val_main_v11 Cert.ReferenceIdeal.Read.val_main_v1 Cert.ReferenceIdeal.Read.val_main_v3
    Cert.ReferenceIdeal.Read.val_main_v8 Cert.ReferenceIdeal.Read.val_main_v10 Cert.ReferenceIdeal.Read.val_main_v0
    Cert.ReferenceIdeal.Read.val_main_v2 Cert.ReferenceIdeal.Read.val_main_v7 Cert.ReferenceIdeal.Read.val_main_v9
    Cert.ReferenceIdeal.Read.val_main_c Cert.ReferenceIdeal.Read.val_main_c_0 Cert.ReferenceIdeal.Read.val_main_c_1
    Cert.ReferenceIdeal.Read.val_main_c_2
  unfold Cert.KernelIdeal.KernelValue.gatherAdd Cert.KernelIdeal.KernelValue.wrapIdx
  rfl

/-- The reference's transposes of the four weight matrices are the kernel side's. -/
theorem tr3_eq (x3 : (⟨Cert.ReferenceIdeal.S128x128, .f32⟩ : BufTy).Contents (Elt Ideal)) :
    Cert.ReferenceIdeal.Read.val_main_v15 (F := Ideal) x3 = Cert.KernelIdeal.KernelValue.tr x3 := by
  unfold Cert.ReferenceIdeal.Read.val_main_v15 Cert.KernelIdeal.KernelValue.tr
  rfl

theorem tr4_eq (x4 : (⟨Cert.ReferenceIdeal.S128x128, .f32⟩ : BufTy).Contents (Elt Ideal)) :
    Cert.ReferenceIdeal.Read.val_main_v17 (F := Ideal) x4 = Cert.KernelIdeal.KernelValue.tr x4 := by
  unfold Cert.ReferenceIdeal.Read.val_main_v17 Cert.KernelIdeal.KernelValue.tr
  rfl

theorem tr5_eq (x5 : (⟨Cert.ReferenceIdeal.S128x128, .f32⟩ : BufTy).Contents (Elt Ideal)) :
    Cert.ReferenceIdeal.Read.val_main_v58 (F := Ideal) x5 = Cert.KernelIdeal.KernelValue.tr x5 := by
  unfold Cert.ReferenceIdeal.Read.val_main_v58 Cert.KernelIdeal.KernelValue.tr
  rfl

theorem tr6_eq (x6 : (⟨Cert.ReferenceIdeal.S128x128, .f32⟩ : BufTy).Contents (Elt Ideal)) :
    Cert.ReferenceIdeal.Read.val_main_v60 (F := Ideal) x6 = Cert.KernelIdeal.KernelValue.tr x6 := by
  unfold Cert.ReferenceIdeal.Read.val_main_v60 Cert.KernelIdeal.KernelValue.tr
  rfl

/-- The reference's mean of the edge rows landing on each target node is the kernel side's, of the same edge update. -/
theorem scatterMean_eq (x0 x1 : (⟨Cert.ReferenceIdeal.S40000x128, .f32⟩ : BufTy).Contents (Elt Ideal))
    (x2 : (⟨Cert.ReferenceIdeal.S640000x128, .f32⟩ : BufTy).Contents (Elt Ideal))
    (x3 x4 : (⟨Cert.ReferenceIdeal.S128x128, .f32⟩ : BufTy).Contents (Elt Ideal))
    (x7 x8 : (⟨Cert.ReferenceIdeal.S128, .f32⟩ : BufTy).Contents (Elt Ideal))
    (x11 x12 : (⟨Cert.ReferenceIdeal.S640000, .i32⟩ : BufTy).Contents (Elt Ideal)) :
    Cert.ReferenceIdeal.Read.val_main_v57 (F := Ideal) x0 x1 x2 x3 x4 x7 x8 x11 x12
      = Cert.KernelIdeal.KernelValue.scatterMean (Cert.ReferenceIdeal.Read.val_main_v44 (F := Ideal) x0 x1 x2 x3 x4 x7 x8 x11 x12) x12 := by
  unfold Cert.ReferenceIdeal.Read.val_main_v57 Cert.ReferenceIdeal.Read.val_main_v48 Cert.ReferenceIdeal.Read.val_main_v56
    Cert.ReferenceIdeal.Read.val_main_v55 Cert.ReferenceIdeal.Read.val_main_v54 Cert.ReferenceIdeal.Read.val_main_v52
    Cert.ReferenceIdeal.Read.val_main_v53 Cert.ReferenceIdeal.Read.val_main_v49 Cert.ReferenceIdeal.Read.val_main_v50
    Cert.ReferenceIdeal.Read.val_main_v51 Cert.ReferenceIdeal.Read.val_main_v46 Cert.ReferenceIdeal.Read.val_main_v47
    Cert.ReferenceIdeal.Read.val_main_cst_7 Cert.ReferenceIdeal.Read.val_main_cst_8 Cert.ReferenceIdeal.Read.val_main_cst_9
    Cert.ReferenceIdeal.Read.val_main_cst_10
  unfold Cert.KernelIdeal.KernelValue.scatterMean
  rfl

end Cert.Bridge

end
-- ==== Proof.lean ====
/-
  The proof of `Cert.Claim`: the three frames, `preserves` (the ideal pass rewrote nothing, so it is `True`) and the
  equivalence of the idealized kernel and the idealized reference over the extended reals.

  Both programs compute, for every edge e with source s(e) and target t(e):
    n2e(e)  = src[s(e)] + tgt[t(e)]                                   (a gather-add of node rows)
    add(e)  = LN( SiLU( n2e(e) · Ws2eᵀ + edge(e) · We2eᵀ ) ; γ1, β1 )   (two linear maps, SiLU, layer normalisation)
    out0(e) = edge(e) + add(e)
  and for every target node v:
    agg(v)  = (sum of add(e) over the edges with t(e) = v) / max(count, 1)   (a scatter-mean)
    out1(v) = tgt(v) + LN( SiLU( agg(v) · We2tᵀ + tgt(v) · Wt2tᵀ ) ; γ2, β2 ).
  The kernel runs the two dense row-wise stages as two pipelined regions over blocks of 5000 edge rows and 2000 node
  rows and leaves the gather-add and the scatter-mean to the host; the reference does everything on the host. At the
  ideal instance a matrix product is a plain sum, a lane sum and a host sum are the same sum, the kernel's logistic is
  `1 / (1 + e^(-x))` as the reference spells it, and the divisor 128 and the ε are the same float words on both sides:
  the two dense stages are one row-wise function (`Cert.RowUpdate.row`), and no algebraic law beyond reading the
  operations at an index is needed, so the finiteness precondition is never opened. The gather-add and the scatter-mean
  are the same host operations on both sides and are carried as named functions, never opened.

  The kernel's side: its run with both results named (the launch over the generated segments), each region's outputs as
  whole arrays (the blocks cover the arrays), and the fold of the host stretches read back to the arguments. The
  reference's side: its generated run and stage-by-stage reading, rewritten to the same row-wise function.
-/
import proofs.«180846_j83734682402872_1_alg».proof.Defs
import proofs.«180846_j83734682402872_1_alg».proof.Proof.Gen.Kernel
import proofs.«180846_j83734682402872_1_alg».proof.Proof.Gen.Kernel.Skeleton
import proofs.«180846_j83734682402872_1_alg».proof.Proof.Gen.Kernel.Launch
import proofs.«180846_j83734682402872_1_alg».proof.Proof.Gen.Kernel.Points
import proofs.«180846_j83734682402872_1_alg».proof.Proof.Gen.Kernel.Frame
import proofs.«180846_j83734682402872_1_alg».proof.Proof.Gen.KernelIdeal
import proofs.«180846_j83734682402872_1_alg».proof.Proof.Gen.KernelIdeal.Skeleton
import proofs.«180846_j83734682402872_1_alg».proof.Proof.Gen.KernelIdeal.Launch
import proofs.«180846_j83734682402872_1_alg».proof.Proof.Gen.KernelIdeal.Points
import proofs.«180846_j83734682402872_1_alg».proof.Proof.Gen.KernelIdeal.Frame
import proofs.«180846_j83734682402872_1_alg».proof.Proof.Gen.ReferenceIdeal
import proofs.«180846_j83734682402872_1_alg».proof.Proof.Gen.Pre_finite_inputs
import proofs.«180846_j83734682402872_1_alg».proof.Proof.Gen.ReferenceIdeal.Run
import proofs.«180846_j83734682402872_1_alg».proof.Proof.Gen.ReferenceIdeal.Read
import proofs.«180846_j83734682402872_1_alg».proof.Proof.KernelValue
import proofs.«180846_j83734682402872_1_alg».proof.Proof.RefValue
import proofs.«180846_j83734682402872_1_alg».proof.Proof.Bridge
import Idealize.ShloMosaic.Adequacy
import Idealize.ShloMosaic.Init

noncomputable section

namespace Cert.Proof

open Idealize.ShloMosaic Idealize.ShloMosaic.TcCoe Idealize.SL.Sem

/-! ## The reference's two results are the kernel-side functions of the arguments -/

section Reference

open Cert.ReferenceIdeal Cert.ReferenceIdeal.Gen

variable (x0 x1 : (⟨S40000x128, .f32⟩ : BufTy).Contents (Elt Ideal)) (x2 : (⟨S640000x128, .f32⟩ : BufTy).Contents (Elt Ideal))
  (x3 x4 x5 x6 : (⟨S128x128, .f32⟩ : BufTy).Contents (Elt Ideal)) (x7 x8 x9 x10 : (⟨S128, .f32⟩ : BufTy).Contents (Elt Ideal))
  (x11 x12 : (⟨S640000, .i32⟩ : BufTy).Contents (Elt Ideal))

/-- The reference's edge update is the row update of the gather-add and the edge features. -/
theorem ref_addFeat : Read.val_main_v44 (F := Ideal) x0 x1 x2 x3 x4 x7 x8 x11 x12
    = Cert.KernelIdeal.KernelValue.addFeatValue x0 x1 x2 x3 x4 x7 x8 x11 x12 := by
  rw [Cert.ReferenceIdeal.RefValue.addFeat_eq, Cert.Bridge.gatherAdd_eq, Cert.Bridge.tr3_eq, Cert.Bridge.tr4_eq]
  rfl

/-- The reference's first result. -/
theorem ref_edge : Read.val_main_v45 (F := Ideal) x0 x1 x2 x3 x4 x7 x8 x11 x12
    = Cert.KernelIdeal.KernelValue.edgeValue x0 x1 x2 x3 x4 x7 x8 x11 x12 := by
  rw [Cert.ReferenceIdeal.RefValue.edgeOut_eq, Cert.Bridge.gatherAdd_eq, Cert.Bridge.tr3_eq, Cert.Bridge.tr4_eq]
  rfl

/-- The reference's second result: the scatter-mean of the same edge update goes into the same row update. -/
theorem ref_node : Read.val_main_v88 (F := Ideal) x0 x1 x2 x3 x4 x5 x6 x7 x8 x9 x10 x11 x12
    = Cert.KernelIdeal.KernelValue.nodeValue x0 x1 x2 x3 x4 x5 x6 x7 x8 x9 x10 x11 x12 := by
  rw [Cert.ReferenceIdeal.RefValue.nodeOut_eq, Cert.Bridge.scatterMean_eq, ref_addFeat, Cert.Bridge.tr5_eq, Cert.Bridge.tr6_eq]
  rfl

end Reference

/-! ## The claims -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments both programs end with the same two arrays: `edgeValue` and `nodeValue`
    of the arguments. -/
theorem algebraic : Cert.algebraic_KernelIdeal_ReferenceIdeal := by
  intro m ρ m' ρ' _ hagree
  refine ⟨fun c => Cert.KernelIdeal.KernelValue.edgeValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    fun c => Cert.KernelIdeal.KernelValue.nodeValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.KernelIdeal.KernelValue.run_value m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12⟩ := hagree c
  refine ⟨(h c).1.trans ?_, (h c).2.1.trans ?_, (h c).2.2⟩
  · rw [Cert.ReferenceIdeal.Read.val_main_v45_eq, h0, h1, h2, h3, h4, h7, h8, h11, h12]
    exact ref_edge _ _ _ _ _ _ _ _ _
  · rw [Cert.ReferenceIdeal.Read.val_main_v88_eq, h0, h1, h2, h3, h4, h5, h6, h7, h8, h9, h10, h11, h12]
    exact ref_node _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
